-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x80 : Shape := ⟨3, ![32, 8192, 80]⟩
abbrev S10 : Shape := ⟨1, ![10]⟩
abbrev S_ : Shape := ⟨0, ![]⟩

class Facts : Prop where
  bcast_S_S32x8192x80 : S_.BroadcastsInDim S32x8192x80 (![] : Fin 0 → Fin S32x8192x80.rank)
  reducesTo_S32x8192x80_S_d0_1_2 : S32x8192x80.ReducesTo [0, 1, 2] S_
  h_S_ : 0 < S_.numel
  bcast_S_S10 : S_.BroadcastsInDim S10 (![] : Fin 0 → Fin S10.rank)
  reducesTo_S10_S_d0 : S10.ReducesTo [0] S_

variable [Facts]

def fn {F : FTy → Type} [FloatOps F] (main_arg0 : FVec F S32x8192x80 .f32) (main_arg1 : IVec S32x8192x80 32) (main_arg2 : FVec F S10 .f32) : IVec S_ 1 :=
  let main_v0 : FVec F S32x8192x80 .f32 := Host.absf main_arg0
  let main_cst : FVec F S_ .f32 := constant S_ .f32 0x7F800000#32
  let main_v1 : FVec F S32x8192x80 .f32 := broadcastInDim S32x8192x80 ![] bcast_S_S32x8192x80 main_cst
  let main_v2 : IVec S32x8192x80 1 := cmpf .olt main_v0 main_v1
  let main_c : IVec S_ 1 := constantI S_ 1 1#1
  let main_v3 : IVec S_ 1 := (fun x v => Host.reduce IntOp.andi x v reducesTo_S32x8192x80_S_d0_1_2 h_S_) main_v2 main_c
  let main_v4 : FVec F S10 .f32 := Host.absf main_arg2
  let main_cst_0 : FVec F S_ .f32 := constant S_ .f32 0x7F800000#32
  let main_v5 : FVec F S10 .f32 := broadcastInDim S10 ![] bcast_S_S10 main_cst_0
  let main_v6 : IVec S10 1 := cmpf .olt main_v4 main_v5
  let main_c_1 : IVec S_ 1 := constantI S_ 1 1#1
  let main_v7 : IVec S_ 1 := (fun x v => Host.reduce IntOp.andi x v reducesTo_S10_S_d0 h_S_) main_v6 main_c_1
  let main_v8 : IVec S_ 1 := andi main_v3 main_v7
  let main_v9 : FVec F S32x8192x80 .f32 := sitofp .f32 main_arg1
  let main_v10 : FVec F S32x8192x80 .f32 := subf main_arg0 main_v9
  let main_v11 : FVec F S32x8192x80 .f32 := Host.absf main_v10
  let main_cst_2 : FVec F S_ .f32 := constant S_ .f32 0x3F800000#32
  let main_v12 : FVec F S32x8192x80 .f32 := broadcastInDim S32x8192x80 ![] bcast_S_S32x8192x80 main_cst_2
  let main_v13 : IVec S32x8192x80 1 := cmpf .ole main_v11 main_v12
  let main_c_3 : IVec S_ 1 := constantI S_ 1 1#1
  let main_v14 : IVec S_ 1 := (fun x v => Host.reduce IntOp.andi x v reducesTo_S32x8192x80_S_d0_1_2 h_S_) main_v13 main_c_3
  let main_v15 : IVec S_ 1 := andi main_v8 main_v14
  main_v15
-- ==== Kernel.lean ====
abbrev S32x8192x80 : Shape := ⟨3, ![32, 8192, 80]⟩
abbrev S10 : Shape := ⟨1, ![10]⟩
abbrev S16 : Shape := ⟨1, ![16]⟩
abbrev S1x8192x80 : Shape := ⟨3, ![1, 8192, 80]⟩
abbrev S8192x80 : Shape := ⟨2, ![8192, 80]⟩
abbrev S8192 : Shape := ⟨1, ![8192]⟩
abbrev S1x8192 : Shape := ⟨2, ![1, 8192]⟩
abbrev S1 : Shape := ⟨1, ![1]⟩
abbrev S1x1 : Shape := ⟨2, ![1, 1]⟩
abbrev S6 : Shape := ⟨1, ![6]⟩
abbrev S_ : Shape := ⟨0, ![]⟩

abbrev nBuf : Space → Nat
  | .hbm => 39
  | .vmem => 12
  | .smem => 0
  | _ => 0

abbrev bufTy : (tb : Table) → Fin (tcTables nBuf tb) → BufTy
  | .hbm, ⟨0, _⟩ => ⟨S32x8192x80, .f32⟩
  | .hbm, ⟨1, _⟩ => ⟨S32x8192x80, .i32⟩
  | .hbm, ⟨2, _⟩ => ⟨S10, .f32⟩
  | .hbm, ⟨3, _⟩ => ⟨S16, .f32⟩
  | .hbm, ⟨4, _⟩ => ⟨S10, .f32⟩
  | .hbm, ⟨5, _⟩ => ⟨S_, .f32⟩
  | .hbm, ⟨6, _⟩ => ⟨S10, .f32⟩
  | .hbm, ⟨7, _⟩ => ⟨S10, .i1⟩
  | .hbm, ⟨8, _⟩ => ⟨S_, .f32⟩
  | .hbm, ⟨9, _⟩ => ⟨S10, .f32⟩
  | .hbm, ⟨10, _⟩ => ⟨S10, .f32⟩
  | .hbm, ⟨11, _⟩ => ⟨S_, .f32⟩
  | .hbm, ⟨12, _⟩ => ⟨S10, .f32⟩
  | .hbm, ⟨13, _⟩ => ⟨S10, .f32⟩
  | .hbm, ⟨14, _⟩ => ⟨S10, .f32⟩
  | .hbm, ⟨15, _⟩ => ⟨S10, .f32⟩
  | .hbm, ⟨16, _⟩ => ⟨S_, .f32⟩
  | .hbm, ⟨17, _⟩ => ⟨S_, .f32⟩
  | .hbm, ⟨18, _⟩ => ⟨S10, .f32⟩
  | .hbm, ⟨19, _⟩ => ⟨S10, .f32⟩
  | .hbm, ⟨20, _⟩ => ⟨S_, .f32⟩
  | .hbm, ⟨21, _⟩ => ⟨S10, .f32⟩
  | .hbm, ⟨22, _⟩ => ⟨S10, .f32⟩
  | .hbm, ⟨23, _⟩ => ⟨S_, .f32⟩
  | .hbm, ⟨24, _⟩ => ⟨S_, .f32⟩
  | .hbm, ⟨25, _⟩ => ⟨S10, .f32⟩
  | .hbm, ⟨26, _⟩ => ⟨S10, .f32⟩
  | .hbm, ⟨27, _⟩ => ⟨S10, .i32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S10, .f32⟩
  | .hbm, ⟨34, _⟩ => ⟨S10, .f32⟩
  | .hbm, ⟨35, _⟩ => ⟨S_, .f32⟩
  | .hbm, ⟨36, _⟩ => ⟨S6, .f32⟩
  | .hbm, ⟨37, _⟩ => ⟨S16, .f32⟩
  | .hbm, ⟨38, _⟩ => ⟨S32x8192x80, .f32⟩
  | .local _ .vmem, ⟨0, _⟩ => ⟨S1x8192x80, .f32⟩
  | .local _ .vmem, ⟨1, _⟩ => ⟨S1x8192x80, .f32⟩
  | .local _ .vmem, ⟨2, _⟩ => ⟨S1x8192x80, .i32⟩
  | .local _ .vmem, ⟨3, _⟩ => ⟨S1x8192x80, .i32⟩
  | .local _ .vmem, ⟨4, _⟩ => ⟨S16, .f32⟩
  | .local _ .vmem, ⟨5, _⟩ => ⟨S1x8192x80, .f32⟩
  | .local _ .vmem, ⟨6, _⟩ => ⟨S1x8192x80, .f32⟩
  | .local _ .vmem, ⟨7, _⟩ => ⟨S1x8192x80, .i32⟩
  | .local _ .vmem, ⟨8, _⟩ => ⟨S1x8192x80, .i32⟩
  | .local _ .vmem, ⟨9, _⟩ => ⟨S16, .f32⟩
  | .local _ .vmem, ⟨10, _⟩ => ⟨S1x8192x80, .f32⟩
  | .local _ .vmem, ⟨11, _⟩ => ⟨S1x8192x80, .f32⟩
  | _, _ => ⟨S32x8192x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_call2_v0 : Ref sig .tc := ⟨.hbm, 24, rfl⟩
abbrev main_call2_v1 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1x8192x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x80 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8192x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8192x80 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x8192x80 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S16_S16_0 : ∀ a, (![0] : Fin 1 → Nat) a + S16.size a ≤ S16.size a
  h_S16 : 0 < S16.numel
  inb_S1x8192x80_S1x8192x80_0_0_0 : ∀ a, (![0, 0, 0] : Fin 3 → Nat) a + S1x8192x80.size a ≤ S1x8192x80.size a
  h_S1x8192x80 : 0 < S1x8192x80.numel
  shapeCasts_S1x8192x80_S8192x80 : S1x8192x80.ShapeCasts S8192x80
  natLt_1_32 : 1 < 32
  reduces_S8192x80_S8192 : S8192x80.Reduces [1] S8192
  shapeCasts_S8192_S1x8192 : S8192.ShapeCasts S1x8192
  reduces_S1x8192_S1 : S1x8192.Reduces [1] S1
  shapeCasts_S1_S1x1 : S1.ShapeCasts S1x1
  inpos_S1x1_p0_0 : ∀ a, (![0, 0] : Fin 2 → Nat) a < S1x1.size a
  concatenates_S1_S1_S1_S1_S1_S1_S1_S1_S1_S1_S10_d0 : Shape.Concatenates [S1, S1, S1, S1, S1, S1, S1, S1, S1, S1] S10 0
  concatenates_S10_S6_S16_d0 : Shape.Concatenates [S10, S6] S16 0
  shapeCasts_S16_S16 : S16.ShapeCasts S16
  slices_S16_S10_0 : S16.Slices ![0] S10
  bcast_S_S10 : S_.BroadcastsInDim S10 (![] : Fin 0 → Fin S10.rank)
  reducesTo_S10_S_d0 : S10.ReducesTo [0] S_
  h_S_ : 0 < S_.numel
  bcast_S_S6 : S_.BroadcastsInDim S6 (![] : Fin 0 → Fin S6.rank)
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  shapeCasts_S8192x80_S1x8192x80 : S8192x80.ShapeCasts S1x8192x80
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x80.size a ≤ S32x8192x80.size a
  hwx0_0 : ∀ i : grid0.Coords, EltTy.bits .f32 = 32 ∨ (Rect.block (s := S32x8192x80) S1x8192x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x80.size a ≤ S32x8192x80.size a
  hwx0_1 : ∀ i : grid0.Coords, EltTy.bits .i32 = 32 ∨ (Rect.block (s := S32x8192x80) S1x8192x80.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x80.size a ≤ S32x8192x80.size a
  hwx1_0 : ∀ i : grid1.Coords, EltTy.bits .f32 = 32 ∨ (Rect.block (s := S32x8192x80) S1x8192x80.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8192x80.size a ≤ S32x8192x80.size a
  hwx1_1 : ∀ i : grid1.Coords, EltTy.bits .i32 = 32 ∨ (Rect.block (s := S32x8192x80) S1x8192x80.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16.size a ≤ S16.size a
  hwx1_2 : ∀ i : grid1.Coords, EltTy.bits .f32 = 32 ∨ (Rect.block (s := S16) S16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8192x80.size a ≤ S32x8192x80.size a
  hwx1_3 : ∀ i : grid1.Coords, EltTy.bits .f32 = 32 ∨ (Rect.block (s := S32x8192x80) S1x8192x80.size (cc1_transform_3 i) (hinb1_3 i)).WholeWords (EltTy.packing .f32)

variable [Facts₀]

abbrev win0_0 : Pipeline.Window sig grid0 :=
  Pipeline.Window.ofSpec (Memref.whole main_arg0) S1x8192x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x8192x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x8192x80.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x8192x80.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x8192x80 : Shape := ⟨3, ![32, 8192, 80]⟩
abbrev S10 : Shape := ⟨1, ![10]⟩
abbrev S_ : Shape := ⟨0, ![]⟩
abbrev S20971520 : Shape := ⟨1, ![20971520]⟩
abbrev S11 : Shape := ⟨1, ![11]⟩
abbrev S20971520x1 : Shape := ⟨2, ![20971520, 1]⟩
abbrev S1 : Shape := ⟨1, ![1]⟩
abbrev S32x8192x80x1 : Shape := ⟨4, ![32, 8192, 80, 1]⟩

abbrev nBuf : Space → Nat
  | .hbm => 72
  | .vmem => 0
  | .smem => 0
  | _ => 0

abbrev bufTy : (tb : Table) → Fin (tcTables nBuf tb) → BufTy
  | .hbm, ⟨0, _⟩ => ⟨S32x8192x80, .f32⟩
  | .hbm, ⟨1, _⟩ => ⟨S32x8192x80, .i32⟩
  | .hbm, ⟨2, _⟩ => ⟨S10, .f32⟩
  | .hbm, ⟨3, _⟩ => ⟨S32x8192x80, .f32⟩
  | .hbm, ⟨4, _⟩ => ⟨S32x8192x80, .f32⟩
  | .hbm, ⟨5, _⟩ => ⟨S32x8192x80, .f32⟩
  | .hbm, ⟨6, _⟩ => ⟨S_, .f32⟩
  | .hbm, ⟨7, _⟩ => ⟨S32x8192x80, .f32⟩
  | .hbm, ⟨8, _⟩ => ⟨S32x8192x80, .f32⟩
  | .hbm, ⟨9, _⟩ => ⟨S32x8192x80, .f32⟩
  | .hbm, ⟨10, _⟩ => ⟨S32x8192x80, .i32⟩
  | .hbm, ⟨11, _⟩ => ⟨S_, .f32⟩
  | .hbm, ⟨12, _⟩ => ⟨S32x8192x80, .f32⟩
  | .hbm, ⟨13, _⟩ => ⟨S32x8192x80, .i1⟩
  | .hbm, ⟨14, _⟩ => ⟨S_, .i32⟩
  | .hbm, ⟨15, _⟩ => ⟨S32x8192x80, .i32⟩
  | .hbm, ⟨16, _⟩ => ⟨S32x8192x80, .i32⟩
  | .hbm, ⟨17, _⟩ => ⟨S_, .i32⟩
  | .hbm, ⟨18, _⟩ => ⟨S_, .i32⟩
  | .hbm, ⟨19, _⟩ => ⟨S32x8192x80, .i32⟩
  | .hbm, ⟨20, _⟩ => ⟨S32x8192x80, .i32⟩
  | .hbm, ⟨21, _⟩ => ⟨S20971520, .i32⟩
  | .hbm, ⟨22, _⟩ => ⟨S_, .i32⟩
  | .hbm, ⟨23, _⟩ => ⟨S20971520, .i32⟩
  | .hbm, ⟨24, _⟩ => ⟨S_, .i32⟩
  | .hbm, ⟨25, _⟩ => ⟨S11, .i32⟩
  | .hbm, ⟨26, _⟩ => ⟨S20971520x1, .i32⟩
  | .hbm, ⟨27, _⟩ => ⟨S11, .i32⟩
  | .hbm, ⟨28, _⟩ => ⟨S10, .i32⟩
  | .hbm, ⟨29, _⟩ => ⟨S_, .i32⟩
  | .hbm, ⟨30, _⟩ => ⟨S10, .i32⟩
  | .hbm, ⟨31, _⟩ => ⟨S10, .i1⟩
  | .hbm, ⟨32, _⟩ => ⟨S10, .f32⟩
  | .hbm, ⟨33, _⟩ => ⟨S_, .f32⟩
  | .hbm, ⟨34, _⟩ => ⟨S10, .f32⟩
  | .hbm, ⟨35, _⟩ => ⟨S10, .f32⟩
  | .hbm, ⟨36, _⟩ => ⟨S_, .f32⟩
  | .hbm, ⟨37, _⟩ => ⟨S10, .f32⟩
  | .hbm, ⟨38, _⟩ => ⟨S10, .f32⟩
  | .hbm, ⟨39, _⟩ => ⟨S10, .f32⟩
  | .hbm, ⟨40, _⟩ => ⟨S10, .f32⟩
  | .hbm, ⟨41, _⟩ => ⟨S_, .f32⟩
  | .hbm, ⟨42, _⟩ => ⟨S_, .f32⟩
  | .hbm, ⟨43, _⟩ => ⟨S10, .f32⟩
  | .hbm, ⟨44, _⟩ => ⟨S10, .f32⟩
  | .hbm, ⟨45, _⟩ => ⟨S_, .f32⟩
  | .hbm, ⟨46, _⟩ => ⟨S10, .f32⟩
  | .hbm, ⟨47, _⟩ => ⟨S10, .f32⟩
  | .hbm, ⟨48, _⟩ => ⟨S_, .f32⟩
  | .hbm, ⟨49, _⟩ => ⟨S_, .f32⟩
  | .hbm, ⟨50, _⟩ => ⟨S10, .f32⟩
  | .hbm, ⟨51, _⟩ => ⟨S10, .f32⟩
  | .hbm, ⟨52, _⟩ => ⟨S_, .f32⟩
  | .hbm, ⟨53, _⟩ => ⟨S1, .f32⟩
  | .hbm, ⟨54, _⟩ => ⟨S11, .f32⟩
  | .hbm, ⟨55, _⟩ => ⟨S10, .i32⟩
  | .hbm, ⟨56, _⟩ => ⟨S_, .i32⟩
  | .hbm, ⟨57, _⟩ => ⟨S_, .i32⟩
  | .hbm, ⟨58, _⟩ => ⟨S_, .f32⟩
  | .hbm, ⟨59, _⟩ => ⟨S_, .i32⟩
  | .hbm, ⟨60, _⟩ => ⟨S32x8192x80, .i32⟩
  | .hbm, ⟨61, _⟩ => ⟨S32x8192x80, .i1⟩
  | .hbm, ⟨62, _⟩ => ⟨S_, .i32⟩
  | .hbm, ⟨63, _⟩ => ⟨S32x8192x80, .i32⟩
  | .hbm, ⟨64, _⟩ => ⟨S32x8192x80, .i32⟩
  | .hbm, ⟨65, _⟩ => ⟨S32x8192x80, .i32⟩
  | .hbm, ⟨66, _⟩ => ⟨S32x8192x80x1, .i32⟩
  | .hbm, ⟨67, _⟩ => ⟨S32x8192x80, .f32⟩
  | .hbm, ⟨68, _⟩ => ⟨S_, .f32⟩
  | .hbm, ⟨69, _⟩ => ⟨S_, .f32⟩
  | .hbm, ⟨70, _⟩ => ⟨S32x8192x80, .f32⟩
  | .hbm, ⟨71, _⟩ => ⟨S32x8192x80, .f32⟩
  | _, _ => ⟨S32x8192x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_call2_v0 : Ref sig .tc := ⟨.hbm, 42, rfl⟩
abbrev main_call2_v1 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_call3_v0 : Ref sig .tc := ⟨.hbm, 49, rfl⟩
abbrev main_call3_v1 : Ref sig .tc := ⟨.hbm, 50, rfl⟩
abbrev main_v30 : Ref sig .tc := ⟨.hbm, 51, rfl⟩
abbrev main_cst_10 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_11 : Ref sig .tc := ⟨.hbm, 56, rfl⟩
abbrev main_v34 : Ref sig .tc := ⟨.hbm, 57, rfl⟩
abbrev main_v35 : Ref sig .tc := ⟨.hbm, 58, rfl⟩
abbrev main_c_12 : Ref sig .tc := ⟨.hbm, 59, rfl⟩
abbrev main_v36 : Ref sig .tc := ⟨.hbm, 60, rfl⟩
abbrev main_v37 : Ref sig .tc := ⟨.hbm, 61, rfl⟩
abbrev main_c_13 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_14 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩

abbrev nD : Nat := 1
abbrev τ : Topo := Topo.v7x

variable {F : FTy → Type} [FloatOps F]

class Facts₀ : Prop where
  bcast_S_S32x8192x80 : S_.BroadcastsInDim S32x8192x80 (![] : Fin 0 → Fin S32x8192x80.rank)
  shapeCasts_S32x8192x80_S20971520 : S32x8192x80.ShapeCasts S20971520
  bcast_S_S20971520 : S_.BroadcastsInDim S20971520 (![] : Fin 0 → Fin S20971520.rank)
  bcast_S_S11 : S_.BroadcastsInDim S11 (![] : Fin 0 → Fin S11.rank)
  bcast_S20971520_S20971520x1_0 : S20971520.BroadcastsInDim S20971520x1 (![0] : Fin 1 → Fin S20971520x1.rank)
  slices_S11_S10_0 : S11.Slices ![0] S10
  bcast_S_S10 : S_.BroadcastsInDim S10 (![] : Fin 0 → Fin S10.rank)
  bcast_S_S1 : S_.BroadcastsInDim S1 (![] : Fin 0 → Fin S1.rank)
  concatenates_S10_S1_S11_d0 : Shape.Concatenates [S10, S1] S11 0
  natLt_1_32 : 1 < 32
  reducesTo_S10_S_d0 : S10.ReducesTo [0] S_
  h_S_ : 0 < S_.numel
  bcast_S32x8192x80_S32x8192x80x1_0_1_2 : S32x8192x80.BroadcastsInDim S32x8192x80x1 (![0, 1, 2] : Fin 3 → Fin S32x8192x80x1.rank)
  scatter_S11_S20971520x1_S20971520_n_0_0_1_wf : ScatterDims.WF S11 S20971520x1 S20971520 [] [0] [0] 1
  gather_S11_S32x8192x80x1_S32x8192x80_n_0_n_n_0_3_1_wf : GatherDims.WF S11 S32x8192x80x1 S32x8192x80 [] [0] [] [0] [] 3 ![1]

variable [Facts₀]

def scatter_S11_S20971520x1_S20971520_n_0_0_1 : ScatterDims S11 S20971520x1 S20971520 where
  updateWindowDims := []
  insertedWindowDims := [0]
  scatterDimsToOperandDims := [0]
  indexVectorDim := 1
  wf := scatter_S11_S20971520x1_S20971520_n_0_0_1_wf
def gather_S11_S32x8192x80x1_S32x8192x80_n_0_n_n_0_3_1 : GatherDims S11 S32x8192x80x1 S32x8192x80 where
  offsetDims := []
  collapsedSliceDims := [0]
  operandBatchingDims := []
  startIndicesBatchingDims := []
  startIndexMap := [0]
  indexVectorDim := 3
  sliceSizes := ![1]
  wf := gather_S11_S32x8192x80x1_S32x8192x80_n_0_n_n_0_3_1_wf

class Facts : Prop extends Facts₀ where

variable [Facts]
-- ==== Proof.BinSpec.lean ====
/-
  The mathematics both programs compute, stated once, on the extended reals.

  For a prediction p and an integer label t the gradient-norm proxy is g = |p − t|; the element's bin is
  ⌊10·g⌋ as a 32-bit integer, capped at 9.  With n_b the number of elements in bin b (b = 0 … 9), a bin is
  occupied when n_b > 0; an occupied bin's running sum becomes 0.1·acc_b + 0.9·n_b and its weight is
  655360 / (that sum), an empty bin's weight is 0; every element's result is the weight of its bin divided by
  max(number of occupied bins, 1).
-/
import Idealize.ShloMosaic.PureOps.Ideal
import Idealize.ShloMosaic.PureOps.Vector
import Idealize.ShloMosaic.PureOps.Contract
import Idealize.ShloMosaic.Lib.ValueIdx

noncomputable section

namespace Cert.Ghm

open Idealize.ShloMosaic

/-- The shape of the two big arrays. -/
abbrev SA : Shape := ⟨3, ![32, 8192, 80]⟩
/-- The shape of the ten per-bin vectors. -/
abbrev SV : Shape := ⟨1, ![10]⟩
/-- The shape of a scalar. -/
abbrev S0 : Shape := ⟨0, ![]⟩

/-- A 32-bit integer read, signed, as a real number. -/
def wreal (t : BitVec 32) : EReal := ((t.toInt : ℝ) : EReal)

/-- The gradient-norm proxy |p − t|. -/
def gnorm (p : EReal) (t : BitVec 32) : EReal := max (p - wreal t) (-(p - wreal t))

/-- The bin of one element: ⌊10·|p − t|⌋ as a 32-bit integer, capped at 9. -/
def bin (p : EReal) (t : BitVec 32) : BitVec 32 :=
  IntOp.minsi (Ideal.fptosi 32 (Ideal.liftRound Int.floor (gnorm p t * Ideal.ofBits .f32 0x41200000#32))) 9#32

/-- The admitted inputs: every prediction is a real number within 1 of its label. -/
def Adm (P : SA.Idx → EReal) (T : SA.Idx → BitVec 32) : Prop :=
  ∀ i, ∃ r : ℝ, P i = (r : EReal) ∧ |r - ((T i).toInt : ℝ)| ≤ 1

/-- How many elements fall in bin `b`. -/
def cnt (P : SA.Idx → EReal) (T : SA.Idx → BitVec 32) (b : ℕ) : ℕ :=
  (Finset.univ.filter fun i : SA.Idx => (bin (P i) (T i)).toNat = b).card

/-- A natural number as an extended real. -/
def nreal (n : ℕ) : EReal := ((n : ℝ) : EReal)

/-- The flag of an occupied bin. -/
def occ (n : ℕ) : BitVec 1 := BitVec.ofBool (decide (0 < n))

def c01 : EReal := Ideal.ofBits .f32 0x3DCCCCCD#32
def c09 : EReal := Ideal.ofBits .f32 0x3F666666#32
def tot : EReal := Ideal.ofBits .f32 0x49200000#32
def one : EReal := Ideal.ofBits .f32 0x3F800000#32
def zero : EReal := Ideal.ofBits .f32 0x00000000#32

/-- An occupied bin's running sum moves towards its count; an empty bin's stays. -/
def newAcc (n : ℕ) (a : EReal) : EReal := Scalar.select (occ n) (c01 * a + c09 * nreal n) a

/-- A bin's weight: 655360 over its running sum when occupied, else 0. -/
def binW (n : ℕ) (a : EReal) : EReal :=
  Scalar.select (occ n) (Ideal.div tot (Scalar.select (occ n) (newAcc n a) one)) zero

/-- The index of bin `k` in a ten-vector. -/
def vidx (k : ℕ) : SV.Idx := ValueIdx.ix1 (⟨k % 10, Nat.mod_lt k (by decide : 0 < 10)⟩ : Fin 10)

/-- The number of occupied bins, as the 32-bit sum of the widened flags both programs take. -/
def nOccW (cn : ℕ → ℕ) : BitVec 32 :=
  Host.reduce (s := SV) (axes := [0]) (t := S0) (u := S0) IntOp.addi
    (fun b : SV.Idx => (occ (cn (b 0).val)).setWidth 32) (fun _ => 0#32) (by decide) (by decide) (fun a => a.elim0)

/-- max(number of occupied bins, 1). -/
def nMax (cn : ℕ → ℕ) : EReal := max (wreal (nOccW cn)) one

/-- The weight every element of bin `k` receives. -/
def weight (cn : ℕ → ℕ) (acc : SV.Idx → EReal) (k : ℕ) : EReal :=
  Ideal.div (binW (cn k) (acc (vidx k))) (nMax cn)

/-- The result array as one function of the three argument arrays. -/
def G (P : SA.Idx → EReal) (T : SA.Idx → BitVec 32) (acc : SV.Idx → EReal) : SA.Idx → EReal :=
  fun i => weight (cnt P T) acc (bin (P i) (T i)).toNat

/-- The shape of one grid point's block of the big arrays. -/
abbrev SBk : Shape := ⟨3, ![1, 8192, 80]⟩
/-- The shape of the padded per-bin table. -/
abbrev S16 : Shape := ⟨1, ![16]⟩

/-- One block's contribution to the padded histogram: entry `b < 10` counts the block's elements in bin `b`,
    the six pad entries are 0. -/
def delta (x0 : SBk.Idx → EReal) (x1 : SBk.Idx → BitVec 32) : S16.Idx → EReal :=
  fun y => if (y 0).val < 10 then
      nreal (Finset.univ.filter fun q : SBk.Idx => (bin (x0 q) (x1 q)).toNat = (y 0).val).card
    else 0

/-- `v` when the element's bin is `b`, else 0. -/
def sel (k b : BitVec 32) (v : EReal) : EReal := Scalar.select (IntOp.cmpi .eq k b) v zero

/-- The ten-way select by which the second pass looks an element's weight up in the padded table. -/
def wsel (k : BitVec 32) (tbl : S16.Idx → EReal) : EReal :=
  zero + sel k 0#32 (tbl (ValueIdx.ix1 (0 : Fin 16))) + sel k 1#32 (tbl (ValueIdx.ix1 (1 : Fin 16)))
    + sel k 2#32 (tbl (ValueIdx.ix1 (2 : Fin 16))) + sel k 3#32 (tbl (ValueIdx.ix1 (3 : Fin 16)))
    + sel k 4#32 (tbl (ValueIdx.ix1 (4 : Fin 16))) + sel k 5#32 (tbl (ValueIdx.ix1 (5 : Fin 16)))
    + sel k 6#32 (tbl (ValueIdx.ix1 (6 : Fin 16))) + sel k 7#32 (tbl (ValueIdx.ix1 (7 : Fin 16)))
    + sel k 8#32 (tbl (ValueIdx.ix1 (8 : Fin 16))) + sel k 9#32 (tbl (ValueIdx.ix1 (9 : Fin 16)))

/-- The padded histogram of the whole input. -/
def hist (P : SA.Idx → EReal) (T : SA.Idx → BitVec 32) : S16.Idx → EReal :=
  fun y => if (y 0).val < 10 then nreal (cnt P T (y 0).val) else 0

/-- The padded table of weights the second pass reads. -/
def table (cn : ℕ → ℕ) (acc : SV.Idx → EReal) : S16.Idx → EReal :=
  fun y => if (y 0).val < 10 then weight cn acc (y 0).val else zero

end Cert.Ghm

end
-- ==== Proof.KArgs.lean ====
/- The idealized kernel's three argument arrays as plain functions of an index. -/
import proofs.«178306_j1932735283877_1_alg».proof.Proof.Gen.KernelIdeal.Frame
import proofs.«178306_j1932735283877_1_alg».proof.Proof.BinSpec

noncomputable section

namespace Cert.KernelIdeal

open Idealize.ShloMosaic Idealize.ShloMosaic.TcCoe Idealize.SL.Sem

/-- The predictions as launched. -/
abbrev inP (m : (ℓ : Loc nD τ sig) → Buf (Elt Ideal) ℓ) (c : Dev nD) : Cert.Ghm.SA.Idx → EReal :=
  m ((c.tc : Thread nD τ).loc main_arg0)
/-- The labels as launched. -/
abbrev inT (m : (ℓ : Loc nD τ sig) → Buf (Elt Ideal) ℓ) (c : Dev nD) : Cert.Ghm.SA.Idx → BitVec 32 :=
  m ((c.tc : Thread nD τ).loc main_arg1)
/-- The running per-bin sums as launched. -/
abbrev inA (m : (ℓ : Loc nD τ sig) → Buf (Elt Ideal) ℓ) (c : Dev nD) : Cert.Ghm.SV.Idx → EReal :=
  m ((c.tc : Thread nD τ).loc main_arg2)

end Cert.KernelIdeal

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.BinFacts.lean ====
/-
  Elementary facts about one element's bin and about the per-bin counts, on the extended reals.

  For an admitted element (p a real number with |p − t| ≤ 1) the proxy g = |p − t| lies in [0, 1], so 10·g lies in
  [0, 10], its floor is one of 0 … 10, the conversion to a 32-bit integer is exact and the cap at 9 leaves a bin in
  0 … 9; in particular g is below the reference's overflow threshold 1 + 2⁻²⁰·8 (the float just above 1.000000).
  A count never exceeds the number of elements, 32·8192·80 = 20971520 < 2³¹, so reading it as a signed 32-bit
  integer loses nothing, and "positive" means the same for the integer and for the real number.
-/
import proofs.«178306_j1932735283877_1_alg».proof.Proof.BinSpec
import proofs.«178306_j1932735283877_1_alg».proof.Proof.LibReal

noncomputable section

namespace Cert.Ghm

open Idealize.ShloMosaic

/-- The proxy of a real prediction is the real absolute difference: max(a, −a) = |a| on the reals, and the
    coercion into the extended reals is monotone, so it commutes with max. -/
private theorem gnorm_coe (r : ℝ) (t : BitVec 32) :
    gnorm (r : EReal) t = ((|r - (t.toInt : ℝ)| : ℝ) : EReal) := by
  unfold gnorm wreal
  rw [← EReal.coe_sub, ← EReal.coe_neg, ← EReal.coe_strictMono.monotone.map_max, abs_eq_max_neg]

/-- The scale constant is the real number ten: (2²³ + 2097152) · 2⁻²⁰. -/
private theorem ten_eq : Ideal.ofBits .f32 0x41200000#32 = ((10 : ℝ) : EReal) := by
  simp [Ideal.ofBits, Ideal.ieee, -EReal.coe_mul]; norm_num

/-- The zero constant is the real number zero. -/
private theorem zero_eq : zero = 0 := by
  unfold zero; simp [Ideal.ofBits, Ideal.ieee]

/-- Capping an integer of 0 … 10 at 9 leaves a word below 10: the eleven cases. -/
private theorem minsi_cap {m : ℤ} (h0 : 0 ≤ m) (h10 : m ≤ 10) :
    (IntOp.minsi (BitVec.ofInt 32 m) 9#32).toNat < 10 := by
  lift m to ℕ using h0
  have hm : m ≤ 10 := by exact_mod_cast h10
  interval_cases m <;> decide

/-- An admitted element's bin is one of 0 … 9. -/
theorem bin_lt {p : EReal} {t : BitVec 32} {r : ℝ} (hp : p = (r : EReal)) (hr : |r - (t.toInt : ℝ)| ≤ 1) :
    (bin p t).toNat < 10 := by
  subst hp
  have hg0 : 0 ≤ |r - (t.toInt : ℝ)| := abs_nonneg _
  unfold bin
  -- 10·g is a real number, so its floor is the real floor
  rw [gnorm_coe, ten_eq, ← EReal.coe_mul, Ideal.liftRound_coe]
  -- 0 ≤ ⌊10·g⌋ ≤ 10 since 0 ≤ g ≤ 1
  have hm0 : 0 ≤ ⌊|r - (t.toInt : ℝ)| * 10⌋ := Int.floor_nonneg.mpr (by positivity)
  have hm10 : ⌊|r - (t.toInt : ℝ)| * 10⌋ ≤ 10 := by
    have h1 : ((⌊|r - (t.toInt : ℝ)| * 10⌋ : ℤ) : ℝ) ≤ |r - (t.toInt : ℝ)| * 10 := Int.floor_le _
    have h2 : ((⌊|r - (t.toInt : ℝ)| * 10⌋ : ℤ) : ℝ) ≤ 10 := by linarith
    exact_mod_cast h2
  generalize ⌊|r - (t.toInt : ℝ)| * 10⌋ = m at hm0 hm10
  -- an integer of 0 … 10 lies inside the signed 32-bit range, so the conversion does not clamp
  have hf : Ideal.fptosi 32 ((m : ℝ) : EReal) = BitVec.ofInt 32 m := by
    unfold Ideal.fptosi
    rw [Ideal.toIntClamped_coe]
    have hmr : (0 : ℝ) ≤ (m : ℝ) := by exact_mod_cast hm0
    rw [if_pos hmr, Int.floor_intCast]
    congr 1
    have e1 : min (((2 ^ (32 - 1) : ℕ) : ℤ) - 1) m = m := min_eq_right (by norm_num; omega)
    rw [e1]
    exact max_eq_right (by norm_num; omega)
  rw [hf]
  exact minsi_cap hm0 hm10

/-- An admitted element's proxy is below the reference's overflow threshold. -/
theorem gnorm_valid {p : EReal} {t : BitVec 32} {r : ℝ} (hp : p = (r : EReal)) (hr : |r - (t.toInt : ℝ)| ≤ 1) :
    Ideal.cmp .olt (gnorm p t) (Ideal.ofBits .f32 0x3F800008#32) = 1#1 := by
  subst hp
  -- the threshold is (2²³ + 8) · 2⁻²³ = 1 + 2⁻²⁰ > 1 ≥ g
  have hc : Ideal.ofBits .f32 0x3F800008#32 = (((8388616 : ℝ) * 2 ^ (-23 : ℤ) : ℝ) : EReal) := by
    simp [Ideal.ofBits, Ideal.ieee, -EReal.coe_mul]
  have hlt : gnorm (r : EReal) t < Ideal.ofBits .f32 0x3F800008#32 := by
    rw [gnorm_coe, hc, EReal.coe_lt_coe_iff]
    refine lt_of_le_of_lt hr ?_
    norm_num
  unfold Ideal.cmp
  simp only [hlt, decide_true]
  rfl

/-- A word below 10 is not negative as a signed integer. -/
theorem not_slt_zero_of_lt {k : BitVec 32} (h : k.toNat < 10) : IntOp.cmpi .slt k 0#32 = 0#1 := by
  have h1 : k.toInt = (k.toNat : ℤ) := BitVec.toInt_eq_toNat_of_lt (by omega)
  have h2 : ¬ (k.toInt < (0#32).toInt) := by
    rw [h1, BitVec.toInt_zero]; omega
  simp only [IntOp.cmpi, BitVec.slt, h2, decide_false]
  rfl

/-- A word below 10 read as a signed integer is its value. -/
theorem toInt_of_lt {k : BitVec 32} (h : k.toNat < 10) : k.toInt = (k.toNat : ℤ) := by
  apply BitVec.toInt_eq_toNat_of_lt
  omega

/-- The number of elements of the big arrays: 32 · 8192 · 80. -/
private theorem numel_SA : SA.numel = 20971520 := by
  simp [Shape.numel, Fin.prod_univ_succ, Shape.size]

/-- No bin holds more elements than there are. -/
theorem cnt_le (P : SA.Idx → EReal) (T : SA.Idx → BitVec 32) (b : ℕ) : cnt P T b ≤ 20971520 := by
  unfold cnt
  -- a filtered subset is no larger than the whole index set, whose cardinality is the product of the sizes
  refine (Finset.card_filter_le _ _).trans ?_
  rw [Finset.card_univ, Shape.card_idx, numel_SA]

/-- A count is positive as a real number exactly when its bin is occupied. -/
theorem occ_of_float (n : ℕ) : Ideal.cmp .ogt (nreal n) (Ideal.ofBits .f32 0x00000000#32) = occ n := by
  have hz : Ideal.ofBits .f32 0x00000000#32 = 0 := by simp [Ideal.ofBits, Ideal.ieee]
  unfold Ideal.cmp occ nreal
  rw [hz]
  congr 1
  simp only [decide_eq_decide]
  -- the coercions ℕ → ℝ → extended reals are strictly monotone
  rw [← EReal.coe_zero, EReal.coe_lt_coe_iff]
  exact Nat.cast_pos

/-- A count is below 2³¹, so as a 32-bit word it reads back unchanged, unsigned and signed. -/
private theorem toNat_ofNat_cnt {n : ℕ} (h : n ≤ 20971520) : (BitVec.ofNat 32 n).toNat = n := by
  rw [BitVec.toNat_ofNat]; omega

private theorem toInt_ofNat_cnt {n : ℕ} (h : n ≤ 20971520) : (BitVec.ofNat 32 n).toInt = (n : ℤ) := by
  rw [BitVec.toInt_eq_toNat_of_lt (by rw [toNat_ofNat_cnt h]; omega), toNat_ofNat_cnt h]

/-- A count is positive as a 32-bit signed integer exactly when its bin is occupied. -/
theorem occ_of_int (n : ℕ) (h : n ≤ 20971520) : IntOp.cmpi .sgt (BitVec.ofNat 32 n) 0#32 = occ n := by
  unfold IntOp.cmpi occ
  simp only [BitVec.slt, toInt_ofNat_cnt h, BitVec.toInt_zero]
  congr 1
  simp only [decide_eq_decide]
  exact Nat.cast_pos

/-- A count read back from its 32-bit integer is the count. -/
theorem wreal_ofNat (n : ℕ) (h : n ≤ 20971520) : wreal (BitVec.ofNat 32 n) = nreal n := by
  unfold wreal nreal
  rw [toInt_ofNat_cnt h]
  norm_cast

/-- The ten-way select at the word of a number below 10: exactly one comparison holds, the other nine summands
    are zero, and zero is neutral for the sum. -/
private theorem wsel_ofNat (n : ℕ) (hn : n < 10) (tbl : S16.Idx → EReal) :
    wsel (BitVec.ofNat 32 n) tbl = tbl (ValueIdx.ix1 (⟨n, by omega⟩ : Fin 16)) := by
  interval_cases n
  all_goals
    simp [wsel, sel, IntOp.cmpi, Scalar.select, zero_eq]

/-- Looking a bin below 10 up by the ten-way select reads the table at that bin. -/
theorem wsel_eq (k : BitVec 32) (h : k.toNat < 10) (tbl : S16.Idx → EReal) :
    wsel k tbl = tbl (ValueIdx.ix1 (⟨k.toNat, by omega⟩ : Fin 16)) := by
  have hk : BitVec.ofNat 32 k.toNat = k := by simp
  have := wsel_ofNat k.toNat h tbl
  rw [hk] at this
  exact this

end Cert.Ghm

end
-- ==== Proof.HistPieces.lean ====
/-
  What one grid point of the first pass leaves in the padded histogram's buffer.

  At the first point the buffer is cleared and the block's counts are added to the zeros read back; at every later
  point the block's counts are added to what the point before left.  A block's count for bin b is the sum over its
  8192 rows of the row sums of the 0/1 indicator "this element's bin is b", which is the number of such elements.
-/
import proofs.«178306_j1932735283877_1_alg».proof.Proof.KArgs
import proofs.«178306_j1932735283877_1_alg».proof.Proof.BinFacts
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hist

open Idealize.ShloMosaic Idealize.ShloMosaic.TcCoe Idealize.SL.Sem Cert.KernelIdeal Cert.KernelIdeal.Gen
open Idealize.ShloMosaic.ValueIdx

/-- The equality test of two words, widened and read as a float, is the 0/1 indicator of their equality. -/
private theorem mask_eq (k b : BitVec 32) :
    FloatOps.sitofp (F := Ideal) .f32 ((IntOp.cmpi .eq k b).setWidth 32)
      = (((if k = b then 1 else 0 : ℕ) : ℝ) : EReal) := by
  show (((((IntOp.cmpi .eq k b).setWidth 32).toInt : ℤ) : ℝ) : EReal) = _
  have hc : IntOp.cmpi .eq k b = if k = b then 1#1 else 0#1 := by
    unfold IntOp.cmpi
    by_cases h : k = b
    · rw [if_pos h, h]; simp
    · rw [if_neg h, show (k == b) = false from beq_false_of_ne h]; rfl
  rw [hc]
  by_cases h : k = b
  · rw [if_pos h, if_pos h]; norm_num
  · rw [if_neg h, if_neg h]; norm_num

/-- The sum along the lanes of one row: the sum over the 80 lanes of that row's entries. -/
private theorem rowsum (f : S8192x80.Idx → EReal) (j : Fin 8192) :
    multiReduction (F := Ideal) (φ := .f32) .add [1] S8192 f 0x00000000#32 reduces_S8192x80_S8192 (.inl rfl) rfl (ix1 j)
      = ∑ l : Fin 80, f (ix2 j l) :=
  (Ideal.multiReduction_add_single f _ reduces_S8192x80_S8192 (.inl rfl) rfl (ix1 j)).trans
    (Finset.sum_congr rfl fun l _ => congrArg f (by
      funext c; match c with | ⟨0, _⟩ => exact Fin.ext rfl | ⟨1, _⟩ => exact Fin.ext rfl))

/-- The sum along the 8192 entries of a one-row array: the sum of its entries. -/
private theorem colsum (g : S1x8192.Idx → EReal) (u : Fin 1) :
    multiReduction (F := Ideal) (φ := .f32) .add [1] S1 g 0x00000000#32 reduces_S1x8192_S1 (.inl rfl) rfl (ix1 u)
      = ∑ r : Fin 8192, g (ix2 u r) :=
  (Ideal.multiReduction_add_single g _ reduces_S1x8192_S1 (.inl rfl) rfl (ix1 u)).trans
    (Finset.sum_congr rfl fun l _ => congrArg g (by
      funext c; match c with | ⟨0, _⟩ => exact Fin.ext rfl | ⟨1, _⟩ => exact Fin.ext rfl))

/-- How many entries of an integer vector equal the word `b`. -/
private def cntv (v : IVec S8192x80 32) (b : BitVec 32) : ℕ := (Finset.univ.filter fun q : S8192x80.Idx => v q = b).card

/-- The count as the double sum of the indicators. -/
private theorem nreal_cntv (v : IVec S8192x80 32) (b : BitVec 32) :
    Cert.Ghm.nreal (cntv v b)
      = ∑ r : Fin 8192, ∑ l : Fin 80, (((if v (ix2 r l) = b then 1 else 0 : ℕ) : ℝ) : EReal) := by
  unfold Cert.Ghm.nreal cntv
  rw [Finset.card_filter, Nat.cast_sum, sum_idx2, Cert.LibReal.coe_sum]
  exact Finset.sum_congr rfl fun r _ => Cert.LibReal.coe_sum _ _

/-- The total of the 0/1 mask "entry = b", taken as the sum over the rows of the row sums, is the number of such entries. -/
private theorem total_eq (v : IVec S8192x80 32) (b : BitVec 32) :
    extractAt ![0, 0] (shapeCast S1x1 (multiReduction (F := Ideal) (φ := .f32) .add [1] S1
        (shapeCast S1x8192 (multiReduction (F := Ideal) (φ := .f32) .add [1] S8192
          (sitofp .f32 (extui 32 (cmpi .eq v (broadcast S8192x80 b)) natLt_1_32))
          0x00000000#32 reduces_S8192x80_S8192 (.inl rfl) rfl) shapeCasts_S8192_S1x8192)
        0x00000000#32 reduces_S1x8192_S1 (.inl rfl) rfl) shapeCasts_S1_S1x1) inpos_S1x1_p0_0
      = Cert.Ghm.nreal (cntv v b) := by
  have e0 : (fun a => (⟨(![0, 0] : Fin 2 → ℕ) a, inpos_S1x1_p0_0 a⟩ : Fin (S1x1.size a)))
      = ix2 (0 : Fin 1) (0 : Fin 1) := by
    funext c; match c with | ⟨0, _⟩ => rfl | ⟨1, _⟩ => rfl
  unfold extractAt
  rw [e0]
  refine (shapeCast_a_1a_apply _ shapeCasts_S1_S1x1 0 0).trans ?_
  refine (colsum _ 0).trans ?_
  rw [nreal_cntv]
  refine Finset.sum_congr rfl fun r _ => ?_
  refine (shapeCast_a_1a_apply _ shapeCasts_S8192_S1x8192 0 r).trans ?_
  refine (rowsum _ r).trans ?_
  exact Finset.sum_congr rfl fun l _ => mask_eq (v (ix2 r l)) b

/-- The element's bin in the kernel's text is the shared bin of the block's element. -/
private theorem bin_at (x0 : Vec Ideal S1x8192x80 .f32) (x1 : Vec Ideal S1x8192x80 .i32) (r : Fin 8192) (l : Fin 80) :
    k0_pay3 (F := Ideal) x0 x1 (ix2 r l) = Cert.Ghm.bin (x0 (ix3 (0 : Fin 1) r l)) (x1 (ix3 (0 : Fin 1) r l)) := by
  have e0 := shapeCast_1ab_ab_apply x0 shapeCasts_S1x8192x80_S8192x80 r l
  have e1 := shapeCast_1ab_ab_apply x1 shapeCasts_S1x8192x80_S8192x80 r l
  show IntOp.minsi (Ideal.fptosi 32 (Ideal.liftRound Int.floor
      (max (shapeCast S8192x80 x0 shapeCasts_S1x8192x80_S8192x80 (ix2 r l)
            - (((shapeCast S8192x80 x1 shapeCasts_S1x8192x80_S8192x80 (ix2 r l)).toInt : ℝ) : EReal))
          (-(shapeCast S8192x80 x0 shapeCasts_S1x8192x80_S8192x80 (ix2 r l)
            - (((shapeCast S8192x80 x1 shapeCasts_S1x8192x80_S8192x80 (ix2 r l)).toInt : ℝ) : EReal)))
        * Ideal.ofBits .f32 0x41200000#32))) 9#32 = _
  rw [e0, e1]
  rfl

/-- The block's index set without its unit axis. -/
private def dropUnit : S8192x80.Idx ≃ Cert.Ghm.SBk.Idx where
  toFun q := ix3 (0 : Fin 1) (q 0) (q 1)
  invFun p := ix2 (p 1) (p 2)
  left_inv q := (eq_ix2 q).symm
  right_inv p := by
    refine Eq.trans ?_ (eq_ix3 p).symm
    have h0 : (0 : Fin 1) = p 0 := Subsingleton.elim _ _
    rw [h0]
    rfl

/-- The kernel's count of bin `n` is the shared count over the block. -/
private theorem cntv_eq (x0 : Vec Ideal S1x8192x80 .f32) (x1 : Vec Ideal S1x8192x80 .i32) (n : ℕ) (hn : n < 10) :
    cntv (k0_pay3 (F := Ideal) x0 x1) (BitVec.ofNat 32 n)
      = (Finset.univ.filter fun q : Cert.Ghm.SBk.Idx => (Cert.Ghm.bin (x0 q) (x1 q)).toNat = n).card := by
  unfold cntv
  refine Finset.card_equiv dropUnit fun q => ?_
  simp only [Finset.mem_filter, Finset.mem_univ, true_and]
  obtain ⟨r, l, rfl⟩ : ∃ (r : Fin 8192) (l : Fin 80), q = ix2 r l := ⟨q 0, q 1, eq_ix2 q⟩
  rw [bin_at]
  show _ ↔ (Cert.Ghm.bin (x0 (ix3 (0 : Fin 1) r l)) (x1 (ix3 (0 : Fin 1) r l))).toNat = n
  constructor
  · intro h; rw [h, BitVec.toNat_ofNat]; exact Nat.mod_eq_of_lt (by omega)
  · intro h; rw [← h, BitVec.ofNat_toNat, BitVec.setWidth_eq]

/-- Ten one-entry pieces laid end to end read, at entry `k`, the `k`-th piece's entry. -/
private theorem cat10 (s : Fin 10 → EReal) (k : Fin 10) :
    concatenate S10 0 [⟨S1, broadcast S1 (s 0)⟩, ⟨S1, broadcast S1 (s 1)⟩, ⟨S1, broadcast S1 (s 2)⟩, ⟨S1, broadcast S1 (s 3)⟩,
        ⟨S1, broadcast S1 (s 4)⟩, ⟨S1, broadcast S1 (s 5)⟩, ⟨S1, broadcast S1 (s 6)⟩, ⟨S1, broadcast S1 (s 7)⟩,
        ⟨S1, broadcast S1 (s 8)⟩, ⟨S1, broadcast S1 (s 9)⟩] concatenates_S1_S1_S1_S1_S1_S1_S1_S1_S1_S1_S10_d0 (ix1 k) = s k :=
  concatenate_ofFn_unit_apply (t := S10) (s₁ := S1) (0 : Fin 1) (fun n : Fin 10 => broadcast S1 (s n))
    concatenates_S1_S1_S1_S1_S1_S1_S1_S1_S1_S1_S10_d0 rfl rfl (ix1 k) k rfl (ix1 (0 : Fin 1))
    (fun b hb => absurd (Subsingleton.elim _ _) hb)

/-- The stored vector at an entry: what was loaded there plus, below entry 10, that bin's total, and nothing in the pad. -/
private theorem pay1_apply (v15 : IVec S8192x80 32) (s0 s1 s2 s3 s4 s5 s6 : EReal) (c7 : BitVec 32)
    (v119 : Vec Ideal S16 .f32) (y : S16.Idx) :
    k0_pay1 (F := Ideal) v15 (broadcast S1 s0) (broadcast S1 s1) (broadcast S1 s2) (broadcast S1 s3) (broadcast S1 s4)
        (broadcast S1 s5) (broadcast S1 s6) c7 v119 y
      = v119 y + (if h : (y 0).val < 10 then
          (![s0, s1, s2, s3, s4, s5, s6, Cert.Ghm.nreal (cntv v15 c7), Cert.Ghm.nreal (cntv v15 8#32),
            Cert.Ghm.nreal (cntv v15 9#32)] : Fin 10 → EReal) ⟨(y 0).val, h⟩ else 0) := by
  unfold k0_pay1
  dsimp only
  rw [total_eq v15 c7, total_eq v15 8#32, total_eq v15 9#32]
  show shapeCast S16 v119 shapeCasts_S16_S16 y + _ = _
  rw [shapeCast_self]
  congr 1
  by_cases h : (y 0).val < 10
  · rw [dif_pos h]
    refine (concatenate_pair_apply_left (t := S16) (s₁ := S10) (s₂ := S6) (0 : Fin 1) _ _ concatenates_S10_S6_S16_d0 y rfl (ix1 ⟨(y 0).val, h⟩)
      (fun b => match b with | ⟨0, _⟩ => rfl)).trans ?_
    exact cat10 ![s0, s1, s2, s3, s4, s5, s6, Cert.Ghm.nreal (cntv v15 c7), Cert.Ghm.nreal (cntv v15 8#32),
      Cert.Ghm.nreal (cntv v15 9#32)] ⟨(y 0).val, h⟩
  · rw [dif_neg h]
    have hlt : (y 0).val < 16 := (y 0).isLt
    refine (concatenate_pair_apply_right (t := S16) (s₁ := S10) (s₂ := S6) (0 : Fin 1) _ _ concatenates_S10_S6_S16_d0 y rfl rfl
      (ix1 ⟨(y 0).val - 10, by omega⟩) (fun b hb => absurd (Subsingleton.elim _ _) hb)
      (by show (y 0).val - 10 + 10 = (y 0).val; omega)).trans ?_
    exact Ideal.ofBits_zero_f32

/-- Each of the seven totals computed ahead of the store is its bin's count: bin 0. -/
private theorem pay4_eq (x0 : Vec Ideal S1x8192x80 .f32) (x1 : Vec Ideal S1x8192x80 .i32) :
    k0_pay4 (F := Ideal) x0 x1 = broadcast S1 (Cert.Ghm.nreal (cntv (k0_pay3 (F := Ideal) x0 x1) 0#32)) := by
  unfold k0_pay4
  dsimp only
  rw [total_eq (k0_pay3 (F := Ideal) x0 x1) 0#32]

/-- Bin 1. -/
private theorem pay5_eq (x0 : Vec Ideal S1x8192x80 .f32) (x1 : Vec Ideal S1x8192x80 .i32) :
    k0_pay5 (F := Ideal) x0 x1 = broadcast S1 (Cert.Ghm.nreal (cntv (k0_pay3 (F := Ideal) x0 x1) 1#32)) := by
  unfold k0_pay5
  dsimp only
  rw [total_eq (k0_pay3 (F := Ideal) x0 x1) 1#32]

/-- Bin 2, its mask formed in the first part and summed in the second. -/
private theorem pay7_eq (x0 : Vec Ideal S1x8192x80 .f32) (x1 : Vec Ideal S1x8192x80 .i32) :
    k0_pay7 (F := Ideal) (k0_pay6 (F := Ideal) x0 x1)
      = broadcast S1 (Cert.Ghm.nreal (cntv (k0_pay3 (F := Ideal) x0 x1) 2#32)) := by
  unfold k0_pay7 k0_pay6
  dsimp only
  rw [total_eq (k0_pay3 (F := Ideal) x0 x1) 2#32]

/-- Bin 3. -/
private theorem pay8_eq (v : IVec S8192x80 32) : k0_pay8 (F := Ideal) v = broadcast S1 (Cert.Ghm.nreal (cntv v 3#32)) := by
  unfold k0_pay8
  dsimp only
  rw [total_eq v 3#32]

/-- Bin 4. -/
private theorem pay9_eq (v : IVec S8192x80 32) : k0_pay9 (F := Ideal) v = broadcast S1 (Cert.Ghm.nreal (cntv v 4#32)) := by
  unfold k0_pay9
  dsimp only
  rw [total_eq v 4#32]

/-- Bin 5. -/
private theorem pay10_eq (v : IVec S8192x80 32) : k0_pay10 (F := Ideal) v = broadcast S1 (Cert.Ghm.nreal (cntv v 5#32)) := by
  unfold k0_pay10
  dsimp only
  rw [total_eq v 5#32]

/-- Bin 6. -/
private theorem pay11_eq (v : IVec S8192x80 32) : k0_pay11 (F := Ideal) v = broadcast S1 (Cert.Ghm.nreal (cntv v 6#32)) := by
  unfold k0_pay11
  dsimp only
  rw [total_eq v 6#32]

/-- The ten totals and the six pad zeros are the block's contribution to the padded histogram. -/
private theorem delta_eq (x0 : Vec Ideal S1x8192x80 .f32) (x1 : Vec Ideal S1x8192x80 .i32) (y : S16.Idx) :
    (if h : (y 0).val < 10 then
        (![Cert.Ghm.nreal (cntv (k0_pay3 (F := Ideal) x0 x1) 0#32), Cert.Ghm.nreal (cntv (k0_pay3 (F := Ideal) x0 x1) 1#32),
          Cert.Ghm.nreal (cntv (k0_pay3 (F := Ideal) x0 x1) 2#32), Cert.Ghm.nreal (cntv (k0_pay3 (F := Ideal) x0 x1) 3#32),
          Cert.Ghm.nreal (cntv (k0_pay3 (F := Ideal) x0 x1) 4#32), Cert.Ghm.nreal (cntv (k0_pay3 (F := Ideal) x0 x1) 5#32),
          Cert.Ghm.nreal (cntv (k0_pay3 (F := Ideal) x0 x1) 6#32), Cert.Ghm.nreal (cntv (k0_pay3 (F := Ideal) x0 x1) 7#32),
          Cert.Ghm.nreal (cntv (k0_pay3 (F := Ideal) x0 x1) 8#32), Cert.Ghm.nreal (cntv (k0_pay3 (F := Ideal) x0 x1) 9#32)]
          : Fin 10 → EReal) ⟨(y 0).val, h⟩ else 0) = Cert.Ghm.delta x0 x1 y := by
  unfold Cert.Ghm.delta
  by_cases h : (y 0).val < 10
  · rw [dif_pos h, if_pos h, ← cntv_eq x0 x1 (y 0).val h]
    have hk : ∀ k : Fin 10,
        (![Cert.Ghm.nreal (cntv (k0_pay3 (F := Ideal) x0 x1) 0#32), Cert.Ghm.nreal (cntv (k0_pay3 (F := Ideal) x0 x1) 1#32),
          Cert.Ghm.nreal (cntv (k0_pay3 (F := Ideal) x0 x1) 2#32), Cert.Ghm.nreal (cntv (k0_pay3 (F := Ideal) x0 x1) 3#32),
          Cert.Ghm.nreal (cntv (k0_pay3 (F := Ideal) x0 x1) 4#32), Cert.Ghm.nreal (cntv (k0_pay3 (F := Ideal) x0 x1) 5#32),
          Cert.Ghm.nreal (cntv (k0_pay3 (F := Ideal) x0 x1) 6#32), Cert.Ghm.nreal (cntv (k0_pay3 (F := Ideal) x0 x1) 7#32),
          Cert.Ghm.nreal (cntv (k0_pay3 (F := Ideal) x0 x1) 8#32), Cert.Ghm.nreal (cntv (k0_pay3 (F := Ideal) x0 x1) 9#32)]
          : Fin 10 → EReal) k = Cert.Ghm.nreal (cntv (k0_pay3 (F := Ideal) x0 x1) (BitVec.ofNat 32 k.val)) := by
      intro k; fin_cases k <;> rfl
    exact hk ⟨(y 0).val, h⟩
  · rw [dif_neg h, if_neg h]

/-- The all-zero offsets of a rank-3 block, as a constant function. -/
private theorem zero3 : (![0, 0, 0] : Fin 3 → ℕ) = fun _ => 0 := by
  funext a; fin_cases a <;> rfl

/-- The all-zero offset of a rank-1 block, as a constant function. -/
private theorem zero1 : (![0] : Fin 1 → ℕ) = fun _ => 0 := by
  funext a; fin_cases a; rfl

/-- The first point leaves the block's counts. -/
theorem out_first (c : Dev nD) (i : grid0.Coords) (arg1 : Memref sig .tc .vmem S1x8192x80 .f32) (harg1 : arg1.IsWhole)
    (arg2 : Memref sig .tc .vmem S1x8192x80 .i32) (harg2 : arg2.IsWhole) (arg3 : Memref sig .tc .vmem S16 .f32)
    (harg3 : arg3.IsWhole) (hc0 : cond0_0 i) (x0 : Vec Ideal S1x8192x80 .f32) (x1 : Vec Ideal S1x8192x80 .i32) :
    out0_A_2 (F := Ideal) c i arg1 harg1 arg2 harg2 arg3 harg3 hc0 x0 x1 = Cert.Ghm.delta x0 x1 := by
  unfold out0_A_2
  rw [View.read_writes_eq_canon _ _ _ (cover0_A_2 c i arg1 harg1 arg2 harg2 arg3 harg3 hc0 x0 x1)]
  unfold kernelRun0_A
  dsimp only
  sl_unfold_words
  rw [View.canon_cons_unit_zero (S := S16) zero1, View.readCov_unit_zero (S := S16) _ zero1]
  simp only [View.readAt_eq_ld, harg1.read_unread, harg2.read_unread, View.ld_unit_zero (S := S1x8192x80) zero3]
  funext y
  rw [pay4_eq, pay5_eq, pay7_eq, pay8_eq, pay9_eq, pay10_eq, pay11_eq, pay1_apply]
  rw [show k0_pay2 (F := Ideal) y = 0 from Ideal.ofBits_zero_f32, zero_add]
  exact delta_eq x0 x1 y

/-- A later point adds the block's counts to what was there. -/
theorem out_next (c : Dev nD) (i : grid0.Coords) (arg1 : Memref sig .tc .vmem S1x8192x80 .f32) (harg1 : arg1.IsWhole)
    (arg2 : Memref sig .tc .vmem S1x8192x80 .i32) (harg2 : arg2.IsWhole) (arg3 : Memref sig .tc .vmem S16 .f32)
    (harg3 : arg3.IsWhole) (hc0 : ¬cond0_0 i) (x0 : Vec Ideal S1x8192x80 .f32) (x1 : Vec Ideal S1x8192x80 .i32)
    (xo : Vec Ideal S16 .f32) :
    out0_B_2 (F := Ideal) c i arg1 harg1 arg2 harg2 arg3 harg3 hc0 x0 x1 xo = fun y => xo y + Cert.Ghm.delta x0 x1 y := by
  unfold out0_B_2
  rw [View.read_writes_eq_canon _ _ _ (cover0_B_2 c i arg1 harg1 arg2 harg2 arg3 harg3 hc0 x0 x1 xo)]
  unfold kernelRun0_B
  dsimp only
  sl_unfold_words
  rw [View.canon_unit_zero (S := S16) zero1]
  simp only [View.readAt_eq_ld, harg1.read_unread, harg2.read_unread, harg3.read_unread,
    View.ld_unit_zero (S := S1x8192x80) zero3, View.ld_unit_zero (S := S16) zero1]
  funext y
  rw [pay4_eq, pay5_eq, pay7_eq, pay8_eq, pay9_eq, pay10_eq, pay11_eq, pay1_apply]
  exact congrArg (xo y + ·) (delta_eq x0 x1 y)

end Cert.KernelIdeal.Hist

end
-- ==== Proof.HistValue.lean ====
/-
  The first pass's result: after the last grid point the padded histogram array holds, in entry b < 10, the number of
  elements of the whole input in bin b, and 0 in the six pad entries.

  The 32 blocks partition the input along its first axis, each point adds its block's counts, and the buffer is written
  back once, after the last point.
-/
import proofs.«178306_j1932735283877_1_alg».proof.Proof.HistPieces
import Idealize.ShloMosaic.Lib.Pipeline.Value

noncomputable section

namespace Cert.KernelIdeal.Hist

open Idealize.ShloMosaic Idealize.ShloMosaic.TcCoe Idealize.SL.Sem Cert.KernelIdeal Cert.KernelIdeal.Gen

section Steps

variable (m : (ℓ : Loc nD τ sig) → Buf (Elt Ideal) ℓ) (ρ : Dev nD → PrngReg)

/-- The block of predictions the first window reads at point t. -/
abbrev xP (c : Dev nD) (t : Fin cfg0.N) : Vec Ideal S1x8192x80 .f32 := iblk0 (V0 m ρ) c 0 t
/-- The block of labels the second window reads at point t. -/
abbrev xT (c : Dev nD) (t : Fin cfg0.N) : Vec Ideal S1x8192x80 .i32 := iblk0 (V0 m ρ) c 1 t

/-- The first point of a run leaves its block's counts. -/
theorem at_A (c : Dev nD) (t : Fin cfg0.N) (h0 : t.val % 32 = 0) :
    outsAt0 (V0 m ρ) c t.val t.isLt = Cert.Ghm.delta (xP m ρ c t) (xT m ρ c t) := by
  rw [outsAt0_A (V0 m ρ) c t h0]
  exact out_first c (grid0.coords t) (ms0_0 t) (hs0_0 t) (ms0_1 t) (hs0_1 t) (ms0_2 t) (hs0_2 t) ((hcond0_0 t).mpr h0)
    (xP m ρ c t) (xT m ρ c t)

/-- Every later point adds its block's counts to what the point before left. -/
theorem at_B (c : Dev nD) (t : Fin cfg0.N) (h0 : ¬t.val % 32 = 0) :
    outsAt0 (V0 m ρ) c t.val t.isLt
      = fun y => outsAt0 (V0 m ρ) c (t.val - 1) (Nat.lt_of_le_of_lt (Nat.sub_le _ _) t.isLt) y
          + Cert.Ghm.delta (xP m ρ c t) (xT m ρ c t) y := by
  rw [outsAt0_B (V0 m ρ) c t h0]
  exact out_next c (grid0.coords t) (ms0_0 t) (hs0_0 t) (ms0_1 t) (hs0_1 t) (ms0_2 t) (hs0_2 t)
    (fun h => h0 ((hcond0_0 t).mp h)) (xP m ρ c t) (xT m ρ c t)
    (outsAt0 (V0 m ρ) c (t.val - 1) (Nat.lt_of_le_of_lt (Nat.sub_le _ _) t.isLt))

/-- How many elements of the block read at point s fall in bin b (a point past the grid has no block). -/
def bc (c : Dev nD) (s b : ℕ) : ℕ :=
  if h : s < cfg0.N then
    (Finset.univ.filter fun q : Cert.Ghm.SBk.Idx =>
      (Cert.Ghm.bin (xP m ρ c ⟨s, h⟩ q) (xT m ρ c ⟨s, h⟩ q)).toNat = b).card
  else 0

/-- A block's contribution, through its counts. -/
theorem delta_eq (c : Dev nD) (t : Fin cfg0.N) (y : Cert.Ghm.S16.Idx) :
    Cert.Ghm.delta (xP m ρ c t) (xT m ρ c t) y
      = if (y 0).val < 10 then Cert.Ghm.nreal (bc m ρ c t.val (y 0).val) else 0 := by
  unfold Cert.Ghm.delta bc
  rw [dif_pos t.isLt]

/-- Counts add as real numbers. -/
theorem nreal_add (a b : ℕ) : Cert.Ghm.nreal a + Cert.Ghm.nreal b = Cert.Ghm.nreal (a + b) := by
  unfold Cert.Ghm.nreal
  rw [Nat.cast_add, EReal.coe_add]

/-- After point n the buffer holds, in entry b < 10, the number of elements of blocks 0 … n in bin b, and 0 in the
    pad entries: by induction on the point, each step adding one block's counts. -/
theorem outsAt_eq (c : Dev nD) : ∀ (n : ℕ) (hn : n < cfg0.N) (y : Cert.Ghm.S16.Idx),
    outsAt0 (V0 m ρ) c n hn y
      = if (y 0).val < 10 then Cert.Ghm.nreal (∑ s ∈ Finset.range (n + 1), bc m ρ c s (y 0).val) else 0
  | 0, hn, y => by
    refine (congrFun (at_A m ρ c ⟨0, hn⟩ rfl) y).trans ?_
    rw [delta_eq, Finset.sum_range_one]
  | n + 1, hn, y => by
    have hN : cfg0.N = 32 := N_0
    have hB : ¬(⟨n + 1, hn⟩ : Fin cfg0.N).val % 32 = 0 := by dsimp only; omega
    refine (congrFun (at_B m ρ c ⟨n + 1, hn⟩ hB) y).trans ?_
    show outsAt0 (V0 m ρ) c n (Nat.lt_of_succ_lt hn) y + _ = _
    rw [outsAt_eq c n (Nat.lt_of_succ_lt hn) y, delta_eq, Finset.sum_range_succ _ (n + 1)]
    by_cases hy : (y 0).val < 10
    · rw [if_pos hy, if_pos hy, if_pos hy, nreal_add]
    · rw [if_neg hy, if_neg hy, if_neg hy, add_zero]

open Idealize.ShloMosaic.ValueIdx in
/-- The input's indices are the pairs of a block number and an index within the block. -/
def blkEquiv : Fin 32 × Cert.Ghm.SBk.Idx ≃ Cert.Ghm.SA.Idx where
  toFun p := ix3 p.1 (p.2 1 : Fin 8192) (p.2 2 : Fin 80)
  invFun i := (i 0, ix3 (0 : Fin 1) (i 1 : Fin 8192) (i 2 : Fin 80))
  left_inv p := Prod.ext rfl (funext fun a => match a with
    | ⟨0, _⟩ => Subsingleton.elim (α := Fin 1) _ _
    | ⟨1, _⟩ => rfl
    | ⟨2, _⟩ => rfl)
  right_inv i := funext fun a => match a with
    | ⟨0, _⟩ => rfl
    | ⟨1, _⟩ => rfl
    | ⟨2, _⟩ => rfl

/-- Block s of the predictions, read through the window, is the launched array at (s, row, lane). -/
theorem xP_apply (c : Dev nD) (s : Fin 32) (h : s.val < cfg0.N) (q : Cert.Ghm.SBk.Idx) :
    xP m ρ c ⟨s.val, h⟩ q = inP m c (blkEquiv (s, q)) := by
  have hi : win0_0.index ⟨s.val, h⟩ 0 = s.val ∧ win0_0.index ⟨s.val, h⟩ 1 = 0 ∧ win0_0.index ⟨s.val, h⟩ 2 = 0 :=
    (by decide +kernel : ∀ t : Fin grid0.N, win0_0.index t 0 = t.val ∧ win0_0.index t 1 = 0 ∧ win0_0.index t 2 = 0) ⟨s.val, h⟩
  have hq : (q 0).val = 0 := by have : (q 0).val < 1 := (q 0).isLt; omega
  show iblk0 (V0 m ρ) c 0 ⟨s.val, h⟩ q = _
  unfold iblk0
  rw [View.read_apply]
  show m ((c : Thread nD τ).loc main_arg0) _ = m ((c : Thread nD τ).loc main_arg0) _
  refine congrArg (m ((c : Thread nD τ).loc main_arg0)) ?_
  funext a
  apply Fin.ext
  match a with
  | ⟨0, _⟩ => show win0_0.index ⟨s.val, h⟩ 0 * 1 + 1 * (q 0).val = s.val; rw [hi.1, hq]; omega
  | ⟨1, _⟩ => show win0_0.index ⟨s.val, h⟩ 1 * 8192 + 1 * (q 1).val = (q 1).val; rw [hi.2.1]; omega
  | ⟨2, _⟩ => show win0_0.index ⟨s.val, h⟩ 2 * 80 + 1 * (q 2).val = (q 2).val; rw [hi.2.2]; omega

/-- Block s of the labels likewise. -/
theorem xT_apply (c : Dev nD) (s : Fin 32) (h : s.val < cfg0.N) (q : Cert.Ghm.SBk.Idx) :
    xT m ρ c ⟨s.val, h⟩ q = inT m c (blkEquiv (s, q)) := by
  have hi : win0_1.index ⟨s.val, h⟩ 0 = s.val ∧ win0_1.index ⟨s.val, h⟩ 1 = 0 ∧ win0_1.index ⟨s.val, h⟩ 2 = 0 :=
    (by decide +kernel : ∀ t : Fin grid0.N, win0_1.index t 0 = t.val ∧ win0_1.index t 1 = 0 ∧ win0_1.index t 2 = 0) ⟨s.val, h⟩
  have hq : (q 0).val = 0 := by have : (q 0).val < 1 := (q 0).isLt; omega
  show iblk0 (V0 m ρ) c 1 ⟨s.val, h⟩ q = _
  unfold iblk0
  rw [View.read_apply]
  show m ((c : Thread nD τ).loc main_arg1) _ = m ((c : Thread nD τ).loc main_arg1) _
  refine congrArg (m ((c : Thread nD τ).loc main_arg1)) ?_
  funext a
  apply Fin.ext
  match a with
  | ⟨0, _⟩ => show win0_1.index ⟨s.val, h⟩ 0 * 1 + 1 * (q 0).val = s.val; rw [hi.1, hq]; omega
  | ⟨1, _⟩ => show win0_1.index ⟨s.val, h⟩ 1 * 8192 + 1 * (q 1).val = (q 1).val; rw [hi.2.1]; omega
  | ⟨2, _⟩ => show win0_1.index ⟨s.val, h⟩ 2 * 80 + 1 * (q 2).val = (q 2).val; rw [hi.2.2]; omega

/-- The 32 blocks partition the input along its first axis, so the per-block counts of a bin add up to the bin's
    count over the whole input: the indicator of the bin summed over pairs (block, index within the block). -/
theorem cnt_split (c : Dev nD) (b : ℕ) :
    ∑ s ∈ Finset.range 32, bc m ρ c s b = Cert.Ghm.cnt (inP m c) (inT m c) b := by
  have hN : cfg0.N = 32 := N_0
  rw [← Fin.sum_univ_eq_sum_range (fun s => bc m ρ c s b) 32]
  unfold Cert.Ghm.cnt
  rw [Finset.card_filter, ← Equiv.sum_comp blkEquiv, Fintype.sum_prod_type]
  refine Finset.sum_congr rfl fun s _ => ?_
  unfold bc
  rw [dif_pos (show s.val < cfg0.N from by rw [hN]; exact s.isLt), Finset.card_filter]
  refine Finset.sum_congr rfl fun q _ => ?_
  rw [xP_apply, xT_apply]

/-- The last point of the grid. -/
abbrev tL : Fin cfg0.N := ⟨31, by rw [show cfg0.N = 32 from N_0]; decide⟩

/-- The padded histogram of the whole input, as contents of the result array. -/
abbrev result (c : Dev nD) : Buf (Elt Ideal) ((c : Thread nD τ).loc main_v0) := Cert.Ghm.hist (inP m c) (inT m c)

/-- After the last point the buffer holds the padded histogram: the counts of blocks 0 … 31 are the whole input's. -/
theorem last_eq (c : Dev nD) : outsAt0 (V0 m ρ) c tL.val tL.isLt = result m c := by
  funext y
  rw [outsAt_eq m ρ c 31 _ y]
  show _ = Cert.Ghm.hist (inP m c) (inT m c) y
  unfold Cert.Ghm.hist
  rw [cnt_split]

/-- The one write-back, at the last point, writes the padded histogram: the one block, at block index 0, is the whole
    16-entry array. -/
theorem flushed_eq (c : Dev nD) (t : Fin cfg0.N) (hf : (cfg0.win 2).flush t = true) :
    (dat0 (V0 m ρ) c).flushed 2 t = ((cfg0.win 2).blk t).view.read (Elt Ideal) (result m c) := by
  have hN : cfg0.N = 32 := N_0
  have h31 : t.val = 31 := by have := (flush0_2 t).mp hf; have := t.isLt; omega
  obtain rfl : t = tL := Fin.ext h31
  show (cfg0.win 2).cut (grid0.coords tL) ((dat0 (V0 m ρ) c).after 2 tL) = _
  rw [after0_2, last_eq]
  have hz' : (fun a => win0_2.index tL a * main_v0.ty.shape.size a) = fun _ => 0 :=
    funext fun a => by fin_cases a <;> decide
  exact (Memref.read_access_unit_zero (Elt Ideal) main_v0 hz' (fun a => by rw [congrFun hz' a]; simp) (result m c)).symm

/-- So the result array ends holding the padded histogram: the last point's block covers every entry. -/
theorem final_hist (c : Dev nD) : (dat0 (V0 m ρ) c).arrAt 2 cfg0.N = result m c :=
  (dat0 (V0 m ρ) c).arrAt_eq_of_cover 2 (result m c) (flushed_eq m ρ c) fun i =>
    ⟨tL, (flush0_2 tL).mpr rfl, by
      show i ∈ ((View.whole main_v0).slice (win0_2.rect tL)).set
      rw [View.set_slice_whole, Rect.mem_set_unit]
      intro a
      have h0 : (i 0 : Nat) < 16 := (i 0).isLt
      match a with
      | ⟨0, _⟩ =>
        show win0_2.index tL 0 * win0_2.size 0 ≤ (i 0 : Nat)
          ∧ (i 0 : Nat) < win0_2.index tL 0 * win0_2.size 0 + win0_2.xsize (grid0.coords tL) 0
        rw [show win0_2.index tL 0 * win0_2.size 0 = 0 from by decide +kernel,
          show win0_2.xsize (grid0.coords tL) 0 = 16 from by decide +kernel]
        omega⟩

end Steps

theorem hist_final (m : (ℓ : Loc nD τ sig) → Buf (Elt Ideal) ℓ) (ρ : Dev nD → PrngReg) (c : Dev nD) :
    (dat0 (F := Ideal) (V0 m ρ) c).arrAt 2 cfg0.N = Cert.Ghm.hist (inP m c) (inT m c) :=
  final_hist m ρ c

end Cert.KernelIdeal.Hist

end
-- ==== Proof.WeightValue.lean ====
/-
  The second pass's result: every element of the output array is the ten-way select of the element's bin in the padded
  table the pass was handed.  Each grid point writes one block; the 32 blocks tile the array.

  The road: (1) at one element of a block, the body's stored value is the ten-way select of that element's bin in
  the table block, for any three blocks; (2) point t's prediction and label blocks are first-axis row t of the two big
  arrays and its table block is the whole table, so what point t writes back is block t of one whole-array function;
  (3) index i lies in the block of the point numbered by i's first coordinate, so the 32 blocks cover the array and
  the array ends holding that function.
-/
import proofs.«178306_j1932735283877_1_alg».proof.Proof.KArgs
import proofs.«178306_j1932735283877_1_alg».proof.Proof.BinFacts
import Idealize.ShloMosaic.Lib.Pipeline.Value
import Idealize.ShloMosaic.Lib.ValueLayout
import Idealize.ShloMosaic.Lib.ValueIdx

noncomputable section

namespace Cert.KernelIdeal.Weight

open Idealize.ShloMosaic Idealize.ShloMosaic.TcCoe Idealize.SL.Sem Cert.KernelIdeal Cert.KernelIdeal.Gen
open Idealize.ShloMosaic.ValueIdx

/-! ## One element of one block -/

/-- The zero offsets of a rank-3 access. -/
private theorem hz3 : (![0, 0, 0] : Fin 3 → Nat) = fun _ => 0 := funext fun a => by fin_cases a <;> rfl
/-- The zero offset of a rank-1 access. -/
private theorem hz1 : (![0] : Fin 1 → Nat) = fun _ => 0 := funext fun a => by fin_cases a <;> rfl

/-- The element's bin as the body computes it from the two blocks: the cap at 9 of the integer part of 10·|p − t|, read
    at row r, lane l of the block with its unit axis dropped. -/
private theorem bin_at (x0 : Vec Ideal S1x8192x80 .f32) (x1 : Vec Ideal S1x8192x80 .i32) (r : Fin 8192) (l : Fin 80) :
    k1_pay2 x0 x1 (ix2 r l) = Cert.Ghm.bin (x0 (ix3 (0 : Fin 1) r l)) (x1 (ix3 (0 : Fin 1) r l)) := by
  unfold k1_pay2
  exact congrArg₂ (fun a b => Cert.Ghm.bin a b) (shapeCast_1ab_ab_apply x0 _ r l) (shapeCast_1ab_ab_apply x1 _ r l)

/-- Entry k of the table as the body takes it: the one-element slice at offset k, read at its only position. -/
private theorem tbl_at (x : Vec Ideal S16 .f32) (k : ℕ) (h : S16.Slices ![k] S1) :
    extractAt ![0] (extractStridedSlice S1 ![k] x h) inpos_S1_p0
      = x (ix1 (⟨k, by have := h.2 0; simpa using this⟩ : Fin 16)) := by
  unfold extractAt extractStridedSlice
  refine congrArg x (funext fun a => ?_)
  match a with
  | ⟨0, _⟩ => rfl

/-- THE BODY AT ONE ELEMENT: what it stores at (0, r, l) is the sum, over the ten bins b, of the table's entry b where the
    element's bin is b and of 0 elsewhere — the ten-way select of the element's bin in the table block. -/
private theorem pay_at (x0 : Vec Ideal S1x8192x80 .f32) (x1 : Vec Ideal S1x8192x80 .i32) (x2 : Vec Ideal S16 .f32)
    (r : Fin 8192) (l : Fin 80) :
    out1_3 x0 x1 x2 (ix3 (0 : Fin 1) r l)
      = Cert.Ghm.wsel (Cert.Ghm.bin (x0 (ix3 (0 : Fin 1) r l)) (x1 (ix3 (0 : Fin 1) r l))) x2 := by
  unfold out1_3
  rw [View.canon_unit_zero hz3]
  simp only [View.ld_unit_zero (S := S1x8192x80) hz3, View.ld_unit_zero (S := S16) hz1]
  rw [← bin_at x0 x1 r l]
  unfold k1_pay1
  refine (shapeCast_ab_1ab_apply _ _ (0 : Fin 1) r l).trans ?_
  simp only [k1_pay6, k1_pay4, k1_pay5, k1_pay7, k1_pay3, shapeCast_self, addf_apply, select_apply, broadcast_apply]
  rw [tbl_at x2 0 slices_S16_o0_S1, tbl_at x2 1 slices_S16_o1_S1, tbl_at x2 2 slices_S16_o2_S1,
    tbl_at x2 3 slices_S16_o3_S1, tbl_at x2 4 slices_S16_o4_S1, tbl_at x2 5 slices_S16_o5_S1,
    tbl_at x2 6 slices_S16_o6_S1, tbl_at x2 7 slices_S16_o7_S1, tbl_at x2 8 slices_S16_o8_S1,
    tbl_at x2 9 slices_S16_o9_S1]
  rfl

/-! ## From blocks to the array -/

section Blocks

variable (m : (ℓ : Loc nD τ sig) → Buf (Elt Ideal) ℓ) (ρ : Dev nD → PrngReg)

/-- The predictions as the second pass finds them. -/
private abbrev predA (c : Dev nD) : Cert.Ghm.SA.Idx → EReal := V8 (F := Ideal) m ρ c main_arg0
/-- The labels as the second pass finds them. -/
private abbrev targA (c : Dev nD) : Cert.Ghm.SA.Idx → BitVec 32 := V8 (F := Ideal) m ρ c main_arg1
/-- The padded table as the second pass finds it. -/
private abbrev tblA (c : Dev nD) : Cert.Ghm.S16.Idx → EReal := V8 (F := Ideal) m ρ c main_v21

/-- The whole result array: each element's bin looked up in the table. -/
private abbrev GW (c : Dev nD) : Cert.Ghm.SA.Idx → EReal :=
  fun i => Cert.Ghm.wsel (Cert.Ghm.bin (predA m ρ c i) (targA m ρ c i)) (tblA m ρ c)

/-- The printed index maps over the grid: the three big windows sit at first-axis block t, the table's window at block 0. -/
private theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 1) = 0
    ∧ win1_3.index t (0 : Fin 3) = t.val ∧ win1_3.index t (1 : Fin 3) = 0 ∧ win1_3.index t (2 : Fin 3) = 0 :=
  (by decide +kernel : ∀ t : Fin grid1.N, _)

/-- The ten-way select of a bin depends only on the prediction, the label and the table. -/
private theorem wsel_congr {a a' : EReal} {b b' : BitVec 32} {tb tb' : Cert.Ghm.S16.Idx → EReal}
    (ha : a = a') (hb : b = b') (ht : tb = tb') :
    Cert.Ghm.wsel (Cert.Ghm.bin a b) tb = Cert.Ghm.wsel (Cert.Ghm.bin a' b') tb' := by
  subst ha hb ht; rfl

/-- Point t's block of the predictions is first-axis row t of the array. -/
private theorem pred_blk (c : Dev nD) (t : Fin cfg1.N) (r : Fin 8192) (l : Fin 80) (i : Cert.Ghm.SA.Idx)
    (h0 : (i 0).val = t.val) (h1 : (i 1).val = r.val) (h2 : (i 2).val = l.val) :
    (iblk1 (V8 (F := Ideal) m ρ) c 0 t (ix3 (0 : Fin 1) r l) : EReal) = predA m ρ c i := by
  obtain ⟨e0, e1, e2, -⟩ := idx_facts t
  unfold iblk1
  rw [View.read_apply]
  show V8 (F := Ideal) m ρ c main_arg0 _ = V8 (F := Ideal) m ρ c main_arg0 i
  refine congrArg _ (funext fun a => Fin.ext ?_)
  match a with
  | ⟨0, _⟩ => show win1_0.index t (0 : Fin 3) * 1 + 1 * (0 : Fin 1).val = (i 0).val; rw [e0, h0]; simp
  | ⟨1, _⟩ => show win1_0.index t (1 : Fin 3) * 8192 + 1 * r.val = (i 1).val; rw [e1, h1]; omega
  | ⟨2, _⟩ => show win1_0.index t (2 : Fin 3) * 80 + 1 * l.val = (i 2).val; rw [e2, h2]; omega

/-- Point t's block of the labels is first-axis row t of the array. -/
private theorem targ_blk (c : Dev nD) (t : Fin cfg1.N) (r : Fin 8192) (l : Fin 80) (i : Cert.Ghm.SA.Idx)
    (h0 : (i 0).val = t.val) (h1 : (i 1).val = r.val) (h2 : (i 2).val = l.val) :
    (iblk1 (V8 (F := Ideal) m ρ) c 1 t (ix3 (0 : Fin 1) r l) : BitVec 32) = targA m ρ c i := by
  obtain ⟨-, -, -, e0, e1, e2, -⟩ := idx_facts t
  unfold iblk1
  rw [View.read_apply]
  show V8 (F := Ideal) m ρ c main_arg1 _ = V8 (F := Ideal) m ρ c main_arg1 i
  refine congrArg _ (funext fun a => Fin.ext ?_)
  match a with
  | ⟨0, _⟩ => show win1_1.index t (0 : Fin 3) * 1 + 1 * (0 : Fin 1).val = (i 0).val; rw [e0, h0]; simp
  | ⟨1, _⟩ => show win1_1.index t (1 : Fin 3) * 8192 + 1 * r.val = (i 1).val; rw [e1, h1]; omega
  | ⟨2, _⟩ => show win1_1.index t (2 : Fin 3) * 80 + 1 * l.val = (i 2).val; rw [e2, h2]; omega

/-- Every point's block of the table is the whole table. -/
private theorem tbl_blk (c : Dev nD) (t : Fin cfg1.N) :
    (iblk1 (V8 (F := Ideal) m ρ) c 2 t : Cert.Ghm.S16.Idx → EReal) = tblA m ρ c := by
  obtain ⟨-, -, -, -, -, -, e0, -⟩ := idx_facts t
  funext y
  unfold iblk1
  rw [View.read_apply]
  show V8 (F := Ideal) m ρ c main_v21 _ = V8 (F := Ideal) m ρ c main_v21 y
  refine congrArg _ (funext fun a => Fin.ext ?_)
  match a with
  | ⟨0, _⟩ => show win1_2.index t (0 : Fin 1) * 16 + 1 * (y 0).val = (y 0).val; rw [e0]; omega

/-- What point t leaves in its output block, element by element: the whole-array function at first-axis row t. -/
private theorem block_at (c : Dev nD) (t : Fin cfg1.N) (j : S1x8192x80.Idx) (i : Cert.Ghm.SA.Idx)
    (h0 : (i 0).val = t.val) (h1 : (i 1).val = (j 1).val) (h2 : (i 2).val = (j 2).val) :
    out1_3 (iblk1 (V8 (F := Ideal) m ρ) c 0 t) (iblk1 (V8 (F := Ideal) m ρ) c 1 t) (iblk1 (V8 (F := Ideal) m ρ) c 2 t) j
      = GW m ρ c i := by
  obtain ⟨u, r, l, rfl⟩ : ∃ (u : Fin 1) (r : Fin 8192) (l : Fin 80), j = ix3 u r l := ⟨j 0, j 1, j 2, eq_ix3 j⟩
  obtain rfl : u = 0 := Subsingleton.elim _ _
  refine (pay_at (iblk1 (V8 (F := Ideal) m ρ) c 0 t) (iblk1 (V8 (F := Ideal) m ρ) c 1 t)
    (iblk1 (V8 (F := Ideal) m ρ) c 2 t) r l).trans ?_
  exact wsel_congr (pred_blk m ρ c t r l i h0 h1 h2) (targ_blk m ρ c t r l i h0 h1 h2) (tbl_blk m ρ c t)

/-- WHAT POINT t WRITES BACK is block t of the whole-array function. -/
private theorem flushed_eq (c : Dev nD) (t : Fin cfg1.N) :
    (dat1 (F := Ideal) (V8 m ρ) c).flushed 3 t = ((cfg1.win 3).blk t).view.read (Elt Ideal) (GW m ρ c) := by
  show (cfg1.win 3).cut (grid1.coords t) ((dat1 (F := Ideal) (V8 m ρ) c).after 3 t) = _
  rw [after1_3]
  obtain ⟨-, -, -, -, -, -, -, e0, e1, e2⟩ := idx_facts t
  funext j
  show out1_3 (iblk1 (V8 (F := Ideal) m ρ) c 0 t) (iblk1 (V8 (F := Ideal) m ρ) c 1 t) (iblk1 (V8 (F := Ideal) m ρ) c 2 t) j
    = GW m ρ c (((cfg1.win 3).blk t).view.emb j)
  have hj0 : (j 0).val < 1 := (j 0).isLt
  refine block_at m ρ c t j _ ?_ ?_ ?_
  · show win1_3.index t (0 : Fin 3) * 1 + 1 * (j 0).val = t.val; rw [e0]; omega
  · show win1_3.index t (1 : Fin 3) * 8192 + 1 * (j 1).val = (j 1).val; rw [e1]; omega
  · show win1_3.index t (2 : Fin 3) * 80 + 1 * (j 2).val = (j 2).val; rw [e2]; omega

/-- An index of the array is in point t's block iff each coordinate is in the block's range on its axis. -/
private theorem mem_blk (t : Fin cfg1.N) (i : S32x8192x80.Idx) :
    i ∈ ((cfg1.win 3).blk t).view.set ↔ ∀ a : Fin 3, win1_3.index t a * S1x8192x80.size a ≤ (i a).val ∧ (i a).val < win1_3.index t a * S1x8192x80.size a + S1x8192x80.size a := by
  show i ∈ ((View.whole main_v22).slice (win1_3.rect t)).set ↔ _
  rw [View.set_slice_whole, Rect.mem_set_unit]
  exact Iff.rfl

/-- The 32 blocks tile the array: index i lies in the block of the point numbered by its first coordinate. -/
private theorem cover (i : S32x8192x80.Idx) :
    ∃ t : Fin cfg1.N, (cfg1.win 3).flush t = true ∧ i ∈ ((cfg1.win 3).blk t).view.set := by
  have hN : cfg1.N = 32 := N_1
  have hi0 : (i 0).val < 32 := (i 0).isLt
  have hi1 : (i 1).val < 8192 := (i 1).isLt
  have hi2 : (i 2).val < 80 := (i 2).isLt
  obtain ⟨t, ht⟩ : ∃ t : Fin cfg1.N, t.val = (i 0).val := ⟨⟨(i 0).val, by rw [hN]; exact hi0⟩, rfl⟩
  obtain ⟨-, -, -, -, -, -, -, e0, e1, e2⟩ := idx_facts t
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; rw [e0, ht]; omega
  | ⟨1, _⟩ => show win1_3.index t (1 : Fin 3) * 8192 ≤ (i 1).val ∧ (i 1).val < win1_3.index t (1 : Fin 3) * 8192 + 8192; rw [e1]; omega
  | ⟨2, _⟩ => show win1_3.index t (2 : Fin 3) * 80 ≤ (i 2).val ∧ (i 2).val < win1_3.index t (2 : Fin 3) * 80 + 80; rw [e2]; omega

end Blocks

theorem weight_final (m : (ℓ : Loc nD τ sig) → Buf (Elt Ideal) ℓ) (ρ : Dev nD → PrngReg) (c : Dev nD) :
    (dat1 (F := Ideal) (V8 m ρ) c).arrAt 3 cfg1.N
      = fun i : Cert.Ghm.SA.Idx =>
          Cert.Ghm.wsel (Cert.Ghm.bin ((V8 (F := Ideal) m ρ c main_arg0 : Cert.Ghm.SA.Idx → EReal) i)
              ((V8 (F := Ideal) m ρ c main_arg1 : Cert.Ghm.SA.Idx → BitVec 32) i))
            (V8 (F := Ideal) m ρ c main_v21 : Cert.Ghm.S16.Idx → EReal) :=
  (dat1 (F := Ideal) (V8 m ρ) c).arrAt_eq_of_cover 3 (GW m ρ c) (fun t _ => flushed_eq m ρ c t) cover

end Cert.KernelIdeal.Weight

end
-- ==== Proof.HostGlue.lean ====
/-
  The host operations between the two passes: from the padded histogram they compute, bin by bin, the occupied flag,
  the moved running sum, the weight 655360 / sum, the number of occupied bins, and the padded table weight / max(n, 1);
  the two big argument arrays pass through untouched.
-/
import proofs.«178306_j1932735283877_1_alg».proof.Proof.KArgs
import proofs.«178306_j1932735283877_1_alg».proof.Proof.BinFacts
import Idealize.ShloMosaic.Lib.IdealHost
import Idealize.ShloMosaic.Lib.Pipeline.Value

noncomputable section

namespace Cert.KernelIdeal.Glue

open Idealize.ShloMosaic Idealize.ShloMosaic.TcCoe Idealize.SL.Sem Cert.KernelIdeal Cert.KernelIdeal.Gen

/-- The occupied flags of the ten bins of a padded histogram: entry by entry, "the count is above zero". -/
def hasOf (H : FVec Ideal S16 .f32) : IVec S10 1 :=
  cmpf (F := Ideal) .ogt (extractStridedSlice S10 ![0] H slices_S16_S10_0)
    (broadcastInDim S10 ![] bcast_S_S10 (constant (F := Ideal) S_ .f32 0x00000000#32))

/-- What the host operations leave in the padded table, as one term of the padded histogram `H` and the running sums `A`. -/
def hostTable (H : FVec Ideal S16 .f32) (A : FVec Ideal S10 .f32) : FVec Ideal S16 .f32 :=
  concatenate S16 0
    [⟨S10, Host.divf
        (select (hasOf H)
          (Host.divf (broadcastInDim S10 ![] bcast_S_S10 (constant (F := Ideal) S_ .f32 0x49200000#32))
            (select (hasOf H)
              (select (hasOf H)
                (addf (mulf (broadcastInDim S10 ![] bcast_S_S10 (constant (F := Ideal) S_ .f32 0x3DCCCCCD#32)) A)
                  (mulf (broadcastInDim S10 ![] bcast_S_S10 (constant (F := Ideal) S_ .f32 0x3F666666#32))
                    (extractStridedSlice S10 ![0] H slices_S16_S10_0)))
                A)
              (broadcastInDim S10 ![] bcast_S_S10 (constant (F := Ideal) S_ .f32 0x3F800000#32))))
          (broadcastInDim S10 ![] bcast_S_S10 (constant (F := Ideal) S_ .f32 0x00000000#32)))
        (broadcastInDim S10 ![] bcast_S_S10
          (maximumf
            (sitofp (F := Ideal) .f32
              (Host.reduce IntOp.addi (extui 32 (hasOf H) natLt_1_32) (constantI S_ 32 0#32) reducesTo_S10_S_d0 h_S_))
            (constant (F := Ideal) S_ .f32 0x3F800000#32)))⟩,
     ⟨S6, broadcastInDim S6 ![] bcast_S_S6 (constant (F := Ideal) S_ .f32 0x00000000#32)⟩]
    concatenates_S10_S6_S16_d0

set_option maxHeartbeats 4000000 in
/-- Reading the seven stretches of host operations back from the padded table: it is `hostTable` of what the first pass left
    in the padded histogram and in the running sums. -/
theorem V8_v21_raw (m : (ℓ : Loc nD τ sig) → Buf (Elt Ideal) ℓ) (ρ : Dev nD → PrngReg) (c : Dev nD) :
    (V8 (F := Ideal) m ρ c main_v21 : FVec Ideal S16 .f32)
      = hostTable (V1 (F := Ideal) m ρ c main_v0) (V1 (F := Ideal) m ρ c main_arg2) := by
  dsimp only [V8, W8, W7, W6, W5, W4, W3, W2]
  simp only [hostOps1, hostOps1_1, hostOps1_2, hostOps1_3, hostOps1_4, hostOps1_5, hostOps1_6]
  after_results
  simp only [StableHlo.TRef.ofBuf, StableHlo.TRef.toBuf, cast_eq]
  rfl

open Idealize.ShloMosaic.ValueIdx in
/-- The first ten entries of a padded histogram of counts, cut out, are the counts. -/
theorem slice_apply (cn : ℕ → ℕ) (j : S10.Idx) :
    extractStridedSlice S10 ![0]
      (fun y : S16.Idx => if (y 0).val < 10 then Cert.Ghm.nreal (cn (y 0).val) else (0 : EReal)) slices_S16_S10_0 j
      = Cert.Ghm.nreal (cn (j 0).val) := by
  have hj : (j 0).val < 10 := (j 0).isLt
  show (if (0 + (j 0).val) < 10 then Cert.Ghm.nreal (cn (0 + (j 0).val)) else (0 : EReal)) = _
  rw [Nat.zero_add, if_pos hj]

open Idealize.ShloMosaic.ValueIdx in
/-- Bin by bin, "the count is above zero" is the occupied flag. -/
theorem hasOf_eq (cn : ℕ → ℕ) :
    hasOf (fun y : S16.Idx => if (y 0).val < 10 then Cert.Ghm.nreal (cn (y 0).val) else (0 : EReal))
      = fun b : S10.Idx => Cert.Ghm.occ (cn (b 0).val) := by
  funext j
  unfold hasOf
  rw [cmpf_apply, slice_apply, broadcastInDim_scalar_apply]
  exact Cert.Ghm.occ_of_float (cn (j 0).val)

open Idealize.ShloMosaic.ValueIdx in
/-- From the padded histogram of counts the host operations make the padded table of weights. -/
theorem hostTable_eq (cn : ℕ → ℕ) (A : FVec Ideal S10 .f32) :
    hostTable (fun y : S16.Idx => if (y 0).val < 10 then Cert.Ghm.nreal (cn (y 0).val) else (0 : EReal)) A
      = Cert.Ghm.table cn A := by
  funext y
  unfold hostTable
  by_cases hy : (y 0).val < 10
  · -- an entry below 10 is read from the ten-vector, where every operation is pointwise
    have hv : Cert.Ghm.vidx (y 0).val = ix1 (⟨(y 0).val, hy⟩ : Fin 10) := by
      unfold Cert.Ghm.vidx; exact congrArg ix1 (Fin.ext (Nat.mod_eq_of_lt hy))
    rw [concatenate_pair_apply_left (t := S16) (s₁ := S10) (s₂ := S6) (0 : Fin 1) _ _ concatenates_S10_S6_S16_d0 y rfl (ix1 (⟨(y 0).val, hy⟩ : Fin 10))
      (fun b => by match b with | ⟨0, _⟩ => rfl)]
    rw [hasOf_eq]
    simp only [hostDivf_apply, select_apply, broadcastInDim_scalar_apply, addf_apply, mulf_apply, maximumf_apply,
      sitofp_apply, constant_apply, slice_apply]
    unfold Cert.Ghm.table Cert.Ghm.weight
    rw [if_pos hy, hv]
    rfl
  · -- a pad entry is read from the six zeros
    have h10 : 10 ≤ (y 0).val := Nat.le_of_not_lt hy
    have h16 : (y 0).val < 16 := (y 0).isLt
    rw [concatenate_pair_apply_right (t := S16) (s₁ := S10) (s₂ := S6) (0 : Fin 1) _ _ concatenates_S10_S6_S16_d0 y rfl rfl (ix1 (⟨(y 0).val - 10, by omega⟩ : Fin 6))
      (fun b hb => by match b with | ⟨0, _⟩ => exact absurd rfl hb)
      (by show (y 0).val - 10 + 10 = (y 0).val; omega)]
    rw [broadcastInDim_scalar_apply]
    unfold Cert.Ghm.table
    rw [if_neg hy]
    rfl

/-- A buffer that none of a stretch's operations writes is, after the stretch, what it was before. -/
local macro "stretch_keeps" : tactic => `(tactic| (
  refine StableHlo.after_of_forall_not_mem _ _ (List.forall_iff_forall_mem.mp ?_)
  simp only [hostOps1, hostOps1_1, hostOps1_2, hostOps1_3, hostOps1_4, hostOps1_5, hostOps1_6, List.Forall,
    StableHlo.nullary_writes, StableHlo.unary_writes, StableHlo.binary_writes, StableHlo.ternary_writes, Finset.mem_singleton]
  repeat' apply And.intro
  all_goals exact StableHlo.devRef_ne_of_ne (by decide)))

/-- No host operation writes the predictions, and the first pass only reads them: they are as launched. -/
theorem W8_main_arg0 (m : (ℓ : Loc nD τ sig) → Buf (Elt Ideal) ℓ) (ρ : Dev nD → PrngReg) (c : Dev nD) :
    W8 (F := Ideal) m ρ c (Proc.devRef .tc main_arg0) = m ((c : Thread nD τ).loc main_arg0) :=
  calc W8 (F := Ideal) m ρ c (Proc.devRef .tc main_arg0)
    _ = W7 m ρ c (Proc.devRef .tc main_arg0) := by stretch_keeps
    _ = W6 m ρ c (Proc.devRef .tc main_arg0) := by stretch_keeps
    _ = W5 m ρ c (Proc.devRef .tc main_arg0) := by stretch_keeps
    _ = W4 m ρ c (Proc.devRef .tc main_arg0) := by stretch_keeps
    _ = W3 m ρ c (Proc.devRef .tc main_arg0) := by stretch_keeps
    _ = W2 m ρ c (Proc.devRef .tc main_arg0) := by stretch_keeps
    _ = W1 m ρ c (Proc.devRef .tc main_arg0) := by stretch_keeps
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- Likewise the labels. -/
theorem W8_main_arg1 (m : (ℓ : Loc nD τ sig) → Buf (Elt Ideal) ℓ) (ρ : Dev nD → PrngReg) (c : Dev nD) :
    W8 (F := Ideal) m ρ c (Proc.devRef .tc main_arg1) = m ((c : Thread nD τ).loc main_arg1) :=
  calc W8 (F := Ideal) m ρ c (Proc.devRef .tc main_arg1)
    _ = W7 m ρ c (Proc.devRef .tc main_arg1) := by stretch_keeps
    _ = W6 m ρ c (Proc.devRef .tc main_arg1) := by stretch_keeps
    _ = W5 m ρ c (Proc.devRef .tc main_arg1) := by stretch_keeps
    _ = W4 m ρ c (Proc.devRef .tc main_arg1) := by stretch_keeps
    _ = W3 m ρ c (Proc.devRef .tc main_arg1) := by stretch_keeps
    _ = W2 m ρ c (Proc.devRef .tc main_arg1) := by stretch_keeps
    _ = W1 m ρ c (Proc.devRef .tc main_arg1) := by stretch_keeps
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

theorem V8_arg0 (m : (ℓ : Loc nD τ sig) → Buf (Elt Ideal) ℓ) (ρ : Dev nD → PrngReg) (c : Dev nD) :
    (V8 (F := Ideal) m ρ c main_arg0 : Cert.Ghm.SA.Idx → EReal) = inP m c :=
  W8_main_arg0 m ρ c

theorem V8_arg1 (m : (ℓ : Loc nD τ sig) → Buf (Elt Ideal) ℓ) (ρ : Dev nD → PrngReg) (c : Dev nD) :
    (V8 (F := Ideal) m ρ c main_arg1 : Cert.Ghm.SA.Idx → BitVec 32) = inT m c :=
  W8_main_arg1 m ρ c

/-- If the first pass left the padded histogram of counts `cn`, the second pass is handed the padded table of their weights. -/
theorem V8_table (m : (ℓ : Loc nD τ sig) → Buf (Elt Ideal) ℓ) (ρ : Dev nD → PrngReg) (c : Dev nD) (cn : ℕ → ℕ)
    (h : (V1 (F := Ideal) m ρ c main_v0 : Cert.Ghm.S16.Idx → EReal) = fun y => if (y 0).val < 10 then Cert.Ghm.nreal (cn (y 0).val) else 0) :
    (V8 (F := Ideal) m ρ c main_v21 : Cert.Ghm.S16.Idx → EReal) = Cert.Ghm.table cn (inA m c) := by
  -- the running sums are not among the first pass's arrays: they are as launched
  have hA : (V1 (F := Ideal) m ρ c main_arg2 : FVec Ideal S10 .f32) = inA m c := W1_of_ne m ρ c main_arg2 (by decide)
  refine (V8_v21_raw m ρ c).trans ?_
  rw [h, hA]
  exact hostTable_eq cn (inA m c)

end Cert.KernelIdeal.Glue

end
-- ==== Proof.KernelValue.lean ====
/-
  The idealized kernel's result as one function of its arguments.

  The second pass writes, at every index, the ten-way select of the element's bin in the padded table; the table is
  the host operations' image of the first pass's padded histogram, which holds the per-bin counts of the whole input.
  For an admitted input every bin is one of 0 … 9, so the select reads the table at the bin, and the table's entry
  there is the weight of that bin.
-/
import proofs.«178306_j1932735283877_1_alg».proof.Proof.KernelLaunch
import proofs.«178306_j1932735283877_1_alg».proof.Proof.HistValue
import proofs.«178306_j1932735283877_1_alg».proof.Proof.WeightValue
import proofs.«178306_j1932735283877_1_alg».proof.Proof.HostGlue

noncomputable section

namespace Cert.KernelIdeal.Result

open Idealize.ShloMosaic Idealize.ShloMosaic.TcCoe Idealize.SL.Sem Cert.KernelIdeal Cert.KernelIdeal.Gen

/-- What the first pass leaves is what the host operations after it read. -/
theorem hist_entry (m : (ℓ : Loc nD τ sig) → Buf (Elt Ideal) ℓ) (ρ : Dev nD → PrngReg) (c : Dev nD) :
    (V1 (F := Ideal) m ρ c main_v0 : Cert.Ghm.S16.Idx → EReal)
      = fun y => if (y 0).val < 10 then Cert.Ghm.nreal (Cert.Ghm.cnt (inP m c) (inT m c) (y 0).val) else 0 :=
  (W1_arr m ρ c 2).trans (Hist.hist_final m ρ c)

/-- The result array of an admitted input. -/
theorem result_eq (m : (ℓ : Loc nD τ sig) → Buf (Elt Ideal) ℓ) (ρ : Dev nD → PrngReg) (c : Dev nD)
    (hadm : Cert.Ghm.Adm (inP m c) (inT m c)) :
    (W9 (F := Ideal) m ρ c (Proc.devRef .tc main_v22) : Cert.Ghm.SA.Idx → EReal)
      = Cert.Ghm.G (inP m c) (inT m c) (inA m c) := by
  refine (W9_arr m ρ c 3).trans ?_
  rw [Weight.weight_final m ρ c, Glue.V8_arg0 m ρ c, Glue.V8_arg1 m ρ c,
    Glue.V8_table m ρ c (Cert.Ghm.cnt (inP m c) (inT m c)) (hist_entry m ρ c)]
  funext i
  obtain ⟨r, hp, hr⟩ := hadm i
  have hlt : (Cert.Ghm.bin (inP m c i) (inT m c i)).toNat < 10 := Cert.Ghm.bin_lt hp hr
  rw [Cert.Ghm.wsel_eq _ hlt]
  unfold Cert.Ghm.table Cert.Ghm.G
  exact if_pos hlt

end Cert.KernelIdeal.Result

end
-- ==== Proof.RArgs.lean ====
/- The idealized reference's three argument arrays as plain functions of an index. -/
import proofs.«178306_j1932735283877_1_alg».proof.ReferenceIdeal
import proofs.«178306_j1932735283877_1_alg».proof.Proof.Gen.ReferenceIdeal
import proofs.«178306_j1932735283877_1_alg».proof.Proof.BinSpec

noncomputable section

namespace Cert.ReferenceIdeal

open Idealize.ShloMosaic Idealize.ShloMosaic.TcCoe Idealize.SL.Sem

/-- The predictions as launched. -/
abbrev inP (m : (ℓ : Loc nD τ sig) → Buf (Elt Ideal) ℓ) (c : Dev nD) : Cert.Ghm.SA.Idx → EReal :=
  m ((c.tc : Thread nD τ).loc main_arg0)
/-- The labels as launched. -/
abbrev inT (m : (ℓ : Loc nD τ sig) → Buf (Elt Ideal) ℓ) (c : Dev nD) : Cert.Ghm.SA.Idx → BitVec 32 :=
  m ((c.tc : Thread nD τ).loc main_arg1)
/-- The running per-bin sums as launched. -/
abbrev inA (m : (ℓ : Loc nD τ sig) → Buf (Elt Ideal) ℓ) (c : Dev nD) : Cert.Ghm.SV.Idx → EReal :=
  m ((c.tc : Thread nD τ).loc main_arg2)

end Cert.ReferenceIdeal

end
-- ==== Proof.RefLayout.lean ====
/-
  Three layout operations of the reference read at an index: the gather that is a table look-up by a bucket word
  in 0 … 10, the concatenation of the ten weights with one extra zero, and the slice that drops the eleventh count.
-/
import proofs.«178306_j1932735283877_1_alg».proof.Proof.RArgs
import Idealize.ShloMosaic.Lib.Pipeline.Value

noncomputable section

namespace Cert.ReferenceIdeal.Layout

open Idealize.ShloMosaic Idealize.ShloMosaic.TcCoe Cert.ReferenceIdeal

variable [Cert.ReferenceIdeal.Facts₀]

local notation "G" => gather_S11_S32x8192x80x1_S32x8192x80_n_0_n_n_0_3_1

/-- The gather reads the eleven-entry table at the element's bucket word, when that word is one of 0 … 10. -/
theorem gather_read {α : Type} (x : S11.Idx → α) (idx : IVec S32x8192x80x1 32) (j : S32x8192x80.Idx) (k : Fin 11)
    (h : (idx (ValueIdx.ix4 (j 0) (j 1) (j 2) (0 : Fin 1))).toInt = (k.val : ℤ)) :
    Host.gather gather_S11_S32x8192x80x1_S32x8192x80_n_0_n_n_0_3_1 x idx j = x (ValueIdx.ix1 k) := by
  unfold Host.gather
  congr 1
  funext a
  obtain rfl : a = 0 := Subsingleton.elim _ _
  refine Fin.ext ?_
  -- the operand index on the table's one axis: the clamped start, plus the batching and offset coordinates
  show (G).start j idx 0 + (G).batchCoord j 0 + (G).offCoord j 0 = k.val
  -- no batching axis, and the one axis is collapsed: both coordinates are 0
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (G).startIndexMap from List.mem_singleton.mpr rfl)]
  -- the start index of result index j is read at (j 0, j 1, j 2, 0)
  have hsi : (G).siIdx j ⟨List.idxOf (0 : Fin 1) (G).startIndexMap,
      List.idxOf_lt_length_iff.2 (List.mem_singleton.mpr rfl)⟩ = ValueIdx.ix4 (j 0) (j 1) (j 2) (0 : Fin 1) := by
    funext b; refine Fin.ext ?_
    match b with
    | ⟨0, _⟩ => rfl
    | ⟨1, _⟩ => rfl
    | ⟨2, _⟩ => rfl
    | ⟨3, _⟩ => rfl
  rw [hsi]
  -- the word read signed is k ≤ 10, so the clamp to [0, 11 − 1] leaves it
  refine (congrArg (fun z : ℤ => min z.toNat (11 - 1)) h).trans ?_
  show min ((k.val : ℤ)).toNat (11 - 1) = k.val
  have := k.isLt
  rw [Int.toNat_natCast]
  omega

/-- Below ten the concatenation reads its first operand. -/
theorem concat_read {α : Type} (a : S10.Idx → α) (b : S1.Idx → α) (k : Fin 11) (hk : k.val < 10) :
    concatenate S11 0 [⟨S10, a⟩, ⟨S1, b⟩] Facts₀.concatenates_S10_S1_S11_d0 (ValueIdx.ix1 k)
      = a (ValueIdx.ix1 (⟨k.val, hk⟩ : Fin 10)) := by
  -- the coordinate k < 10 falls in the first piece, at the same coordinate
  refine concatenate_pair_apply_left (0 : Fin S11.rank) a b _ _ rfl _ ?_
  intro c
  obtain rfl : c = 0 := Subsingleton.elim _ _
  rfl

/-- The slice of the first ten entries reads the same entry. -/
theorem slice_read {α : Type} (x : S11.Idx → α) (k : Fin 10) :
    extractStridedSlice S10 ![0] x Facts₀.slices_S11_S10_0 (ValueIdx.ix1 k)
      = x (ValueIdx.ix1 (⟨k.val, by omega⟩ : Fin 11)) := by
  -- the slice starts at offset 0: entry k of the slice is entry 0 + k of the operand
  refine extractStridedSlice_apply _ x _ _ _ ?_
  intro c
  obtain rfl : c = 0 := Subsingleton.elim _ _
  show k.val = 0 + k.val
  omega

end Cert.ReferenceIdeal.Layout

end
-- ==== Proof.ScatterCount.lean ====
/-
  The reference's histogram: scattering a 1 onto an eleven-entry array of zeros at each element's bucket, with
  integer addition, leaves in entry b the number of elements whose bucket is b (as a 32-bit integer).

  The scatter is a left fold over the update positions; integer addition is commutative and associative, so entry b
  ends at the number of positions whose index lands on b.  The flattened positions are in bijection with the indices
  of the 32 × 8192 × 80 array (row-major order), so counting positions is counting elements.
-/
import proofs.«178306_j1932735283877_1_alg».proof.Proof.RArgs
import proofs.«178306_j1932735283877_1_alg».proof.Proof.BinFacts

noncomputable section

namespace Cert.ReferenceIdeal.Scatter

open Idealize.ShloMosaic Idealize.ShloMosaic.TcCoe Cert.ReferenceIdeal

/-- A left fold whose step adds one to the entry its position lands on (and does nothing at a position that lands
    nowhere) ends, at entry `b`, at the starting value plus the number of positions that land on `b`: by induction
    on the list of positions, with the starting array general; 32-bit addition is associative and commutative. -/
private theorem foldl_count {ι κ : Type} [DecidableEq κ] (ρ : ι → Option κ)
    (g : (κ → BitVec 32) → ι → κ → BitVec 32)
    (hg : ∀ r n b, g r n b = if ρ n = some b then r b + 1#32 else r b)
    (L : List ι) (x : κ → BitVec 32) (b : κ) :
    L.foldl g x b = x b + BitVec.ofNat 32 (L.countP fun n => decide (ρ n = some b)) := by
  induction L generalizing x with
  | nil => simp
  | cons n L ih =>
    rw [List.foldl_cons, ih, hg, List.countP_cons]
    by_cases h : ρ n = some b
    · simp only [h, if_true, decide_true]
      rw [BitVec.ofNat_add]
      ac_rfl
    · simp [h]

/-- Counting, along the list of all positions below `n`, those whose image under a bijection onto a finite type
    has a property is counting the elements of that type with the property: the list has every position once. -/
private theorem countP_finRange_equiv {n : ℕ} {β : Type} [Fintype β] (e : Fin n ≃ β) (p : β → Prop) [DecidablePred p] :
    (List.finRange n).countP (fun k => decide (p (e k))) = (Finset.univ.filter p).card := by
  rw [List.countP_eq_length_filter, ← List.toFinset_card_of_nodup ((List.nodup_finRange n).filter _),
    List.toFinset_filter, List.toFinset_finRange]
  exact Finset.card_equiv e (by simp)

/-- A scatter with integer addition whose updates are all one: entry `b` ends at its starting value plus the
    number of update indices whose result index is `b`. -/
private theorem scatter_addi_one {s si u : Shape} {w : ℕ} (d : ScatterDims s si u) (x : s.Idx → BitVec 32)
    (idx : IVec si w) (upd : u.Idx → BitVec 32) (hupd : ∀ j, upd j = 1#32) (b : s.Idx) :
    Host.scatter d IntOp.addi x idx upd b
      = x b + BitVec.ofNat 32 (Finset.univ.filter fun j : u.Idx => d.resultIdx? j idx = some b).card := by
  unfold Host.scatter
  rw [foldl_count (fun n => d.resultIdx? (u.rowMajor.symm n) idx) _ ?_ _ x b]
  · rw [countP_finRange_equiv u.rowMajor.symm (fun j => d.resultIdx? j idx = some b)]
  · intro r n b'
    cases h : d.resultIdx? (u.rowMajor.symm n) idx with
    | none => simp
    | some i =>
      by_cases hb : b' = i
      · subst hb; simp [IntOp.addi, hupd]
      · have : ¬ i = b' := fun e => hb e.symm
        simp [hb, this]

/-- In a dependent index, equal axes give equal coordinates. -/
private theorem coord_val_congr {s : Shape} (j : s.Idx) {x y : Fin s.rank} (h : x = y) : (j x).val = (j y).val := by
  subst h; rfl

/-- Into an operand with one axis, of length `n`: when start plus window coordinate on that axis is `z`, the update
    lands on entry `b` exactly when `z` is `b` (then `0 ≤ z < n` holds because `b` is an entry). -/
private theorem resultIdx?_rank_one {n : ℕ} {si u : Shape} {w : ℕ} (d : ScatterDims ⟨1, ![n]⟩ si u) (j : u.Idx)
    (idx : IVec si w) (b : (⟨1, ![n]⟩ : Shape).Idx) (z : ℤ) (key : d.start j idx 0 + (d.window j 0 : ℤ) = z) :
    d.resultIdx? j idx = some b ↔ z = ((b 0).val : ℤ) := by
  subst key
  have hb : (b 0).val < n := (b 0).isLt
  unfold ScatterDims.resultIdx?
  constructor
  · intro h
    split at h
    · rename_i hc
      have h2 := congrArg Fin.val (congrFun (Option.some.inj h) 0)
      simp only at h2
      have h3 := (hc 0).1
      omega
    · exact absurd h (by simp)
  · intro h
    rw [dif_pos]
    · refine congrArg some (funext fun a => ?_)
      have ha : a = 0 := Subsingleton.elim _ _
      subst ha
      apply Fin.ext
      show (d.start j idx 0 + (d.window j 0 : ℤ)).toNat = (b 0).val
      omega
    · intro a
      have ha : a = 0 := Subsingleton.elim _ _
      subst ha
      refine ⟨by omega, ?_⟩
      show d.start j idx 0 + (d.window j 0 : ℤ) < ((n : ℕ) : ℤ)
      omega

variable [Cert.ReferenceIdeal.Facts]

/-- For the histogram's scatter (one operand axis, inserted; the index vector on the trailing unit axis of the index
    operand) the update at flat position `j` lands on entry `b` exactly when the bucket word at the element matched
    with `j`, read signed, is `b`: the window coordinate is 0 and the start is that word. -/
private theorem resultIdx_iff (J : IVec S32x8192x80 32) (j : S20971520.Idx) (b : S11.Idx) :
    scatter_S11_S20971520x1_S20971520_n_0_0_1.resultIdx? j
        (broadcastInDim S20971520x1 ![0] Facts₀.bcast_S20971520_S20971520x1_0
          (shapeCast S20971520 J Facts₀.shapeCasts_S32x8192x80_S20971520)) = some b
      ↔ (J (Shape.reshapeEquiv Facts₀.shapeCasts_S32x8192x80_S20971520 j)).toInt = ((b 0).val : ℤ) := by
  have hw : scatter_S11_S20971520x1_S20971520_n_0_0_1.window j 0 = 0 := by
    unfold ScatterDims.window
    rw [dif_neg]
    simp [ScatterDims.sKept, Shape.kept, scatter_S11_S20971520x1_S20971520_n_0_0_1]
  have hs : scatter_S11_S20971520x1_S20971520_n_0_0_1.start j
        (broadcastInDim S20971520x1 ![0] Facts₀.bcast_S20971520_S20971520x1_0
          (shapeCast S20971520 J Facts₀.shapeCasts_S32x8192x80_S20971520)) 0
      = (J (Shape.reshapeEquiv Facts₀.shapeCasts_S32x8192x80_S20971520 j)).toInt := by
    unfold ScatterDims.start
    rw [dif_pos (by simp [scatter_S11_S20971520x1_S20971520_n_0_0_1])]
    unfold broadcastInDim shapeCast
    congr 3
    funext a
    have ha : a = 0 := Subsingleton.elim _ _
    subst ha
    rw [dif_neg (by decide)]
    apply Fin.ext
    simp only [ScatterDims.siIdx]
    rw [dif_neg (by simp [scatter_S11_S20971520x1_S20971520_n_0_0_1])]
    unfold ScatterDims.siCoord
    exact coord_val_congr j (Subsingleton.elim _ _)
  exact resultIdx?_rank_one _ j _ b _ (by rw [hw, hs]; simp)

/-- Entry `b` of the scattered histogram is the number of elements whose bucket word, read signed, is `b`;
    `J` is the array of bucket words, `shapeCast` flattens it and `broadcastInDim` gives it the trailing unit axis the
    scatter's index operand has. -/
theorem scatter_count (J : IVec S32x8192x80 32) (b : S11.Idx) :
    Host.scatter scatter_S11_S20971520x1_S20971520_n_0_0_1 IntOp.addi
        (broadcastInDim S11 ![] Facts₀.bcast_S_S11 (constantI S_ 32 0#32))
        (broadcastInDim S20971520x1 ![0] Facts₀.bcast_S20971520_S20971520x1_0
          (shapeCast S20971520 J Facts₀.shapeCasts_S32x8192x80_S20971520))
        (broadcastInDim S20971520 ![] Facts₀.bcast_S_S20971520 (constantI S_ 32 1#32)) b
      = BitVec.ofNat 32 (Finset.univ.filter fun i : S32x8192x80.Idx => (J i).toInt = ((b 0).val : ℤ)).card := by
  rw [scatter_addi_one _ _ _ (broadcastInDim S20971520 ![] Facts₀.bcast_S_S20971520 (constantI S_ 32 1#32)) (fun _ => rfl)]
  have h0 : broadcastInDim S11 ![] Facts₀.bcast_S_S11 (constantI S_ 32 0#32) b = 0#32 := rfl
  rw [h0, BitVec.zero_add]
  refine congrArg (BitVec.ofNat 32) ?_
  exact Finset.card_equiv (Shape.reshapeEquiv Facts₀.shapeCasts_S32x8192x80_S20971520)
    (fun j => by simp only [Finset.mem_filter, Finset.mem_univ, true_and]; exact resultIdx_iff J j b)

end Cert.ReferenceIdeal.Scatter

end
-- ==== Proof.RefValue.lean ====
/-
  The idealized reference's result as one function of its arguments.

  For an admitted input every proxy is below the overflow threshold, so an element's bucket is its bin, one of 0 … 9;
  the scattered histogram's first ten entries are the per-bin counts, none of which exceeds the number of elements, so
  the integer tests and conversions agree with the real numbers; the look-up in the weights extended by one zero reads
  the weight of the element's bin, and the quotient by max(number of occupied bins, 1) is taken last.

  The run is read in two stretches.  The first 26 operations compute the bucket words and, by the scatter, the
  counts; the other 43 compute the result from the counts, the bucket words and the running sums, whatever these
  are.  The result is first stated as one term over those three (the operations composed), then that term is shown
  to be the specification, pointwise.
-/
import proofs.«178306_j1932735283877_1_alg».proof.Proof.RefRun
import proofs.«178306_j1932735283877_1_alg».proof.Proof.RefLayout
import proofs.«178306_j1932735283877_1_alg».proof.Proof.ScatterCount
import proofs.«178306_j1932735283877_1_alg».proof.Proof.BinFacts

noncomputable section

namespace Cert.ReferenceIdeal.Result

open Idealize.ShloMosaic Idealize.ShloMosaic.TcCoe Idealize.SL.Sem Idealize.ShloMosaic.StableHlo Cert.ReferenceIdeal Cert.ReferenceIdeal.Gen

variable [Cert.ReferenceIdeal.Facts]

open Facts₀ in
/-- The concatenation of ten entries with one more, as a function of the two operands. -/
private def cat2 {α : Type} (a : S10.Idx → α) (b : S1.Idx → α) : S11.Idx → α :=
  concatenate S11 0 [⟨S10, a⟩, ⟨S1, b⟩] Facts₀.concatenates_S10_S1_S11_d0

private theorem cat2_def {α : Type} (a : S10.Idx → α) (b : S1.Idx → α) :
    concatenate S11 0 [⟨S10, a⟩, ⟨S1, b⟩] Facts₀.concatenates_S10_S1_S11_d0 = cat2 a b := rfl

/-- The proxy array |p − t|. -/
private def gP (P : FVec Ideal S32x8192x80 .f32) (T : IVec S32x8192x80 32) : FVec Ideal S32x8192x80 .f32 :=
  Host.absf (subf P (sitofp .f32 T))

/-- The array of bucket words: the capped floor where the proxy is below the threshold, else 10. -/
private def idxP (P : FVec Ideal S32x8192x80 .f32) (T : IVec S32x8192x80 32) : IVec S32x8192x80 32 :=
  select (cmpf .olt (gP P T) (broadcastInDim S32x8192x80 ![] Facts₀.bcast_S_S32x8192x80 (constant S_ .f32 0x3F800008#32)))
    (minsi (fptosi 32 (Host.floor (mulf (gP P T)
        (broadcastInDim S32x8192x80 ![] Facts₀.bcast_S_S32x8192x80 (constant S_ .f32 0x41200000#32)))))
      (broadcastInDim S32x8192x80 ![] Facts₀.bcast_S_S32x8192x80 (constantI S_ 32 9#32)))
    (broadcastInDim S32x8192x80 ![] Facts₀.bcast_S_S32x8192x80 (constantI S_ 32 10#32))

/-- The first ten entries of the scattered histogram of the bucket words `J`. -/
private def cntP (J : IVec S32x8192x80 32) : IVec S10 32 :=
  extractStridedSlice S10 ![0]
    (Host.scatter scatter_S11_S20971520x1_S20971520_n_0_0_1 IntOp.addi
      (broadcastInDim S11 ![] Facts₀.bcast_S_S11 (constantI S_ 32 0#32))
      (broadcastInDim S20971520x1 ![0] Facts₀.bcast_S20971520_S20971520x1_0
        (shapeCast S20971520 J Facts₀.shapeCasts_S32x8192x80_S20971520))
      (broadcastInDim S20971520 ![] Facts₀.bcast_S_S20971520 (constantI S_ 32 1#32)))
    Facts₀.slices_S11_S10_0

/-- The flags of the occupied bins. -/
private def flagP (C : IVec S10 32) : IVec S10 1 :=
  cmpi .sgt C (broadcastInDim S10 ![] Facts₀.bcast_S_S10 (constantI S_ 32 0#32))

/-- The ten weights. -/
private def wP (C : IVec S10 32) (A : FVec Ideal S10 .f32) : FVec Ideal S10 .f32 :=
  select (flagP C)
    (Host.divf (broadcastInDim S10 ![] Facts₀.bcast_S_S10 (constant S_ .f32 0x49200000#32))
      (select (flagP C)
        (select (flagP C)
          (addf (mulf (broadcastInDim S10 ![] Facts₀.bcast_S_S10 (constant S_ .f32 0x3DCCCCCD#32)) A)
            (mulf (broadcastInDim S10 ![] Facts₀.bcast_S_S10 (constant S_ .f32 0x3F666666#32)) (sitofp .f32 C)))
          A)
        (broadcastInDim S10 ![] Facts₀.bcast_S_S10 (constant S_ .f32 0x3F800000#32))))
    (broadcastInDim S10 ![] Facts₀.bcast_S_S10 (constant S_ .f32 0x00000000#32))

/-- max(number of occupied bins, 1) as a scalar array. -/
private def denP (C : IVec S10 32) : FVec Ideal S_ .f32 :=
  maximumf (sitofp .f32 (Host.reduce IntOp.addi (extui 32 (flagP C) Facts₀.natLt_1_32) (constantI S_ 32 0#32)
      Facts₀.reducesTo_S10_S_d0 Facts₀.h_S_))
    (constant S_ .f32 0x3F800000#32)

/-- The bucket words as look-up indices: a negative word is counted from the end. -/
private def idxN (J : IVec S32x8192x80 32) : IVec S32x8192x80 32 :=
  select (cmpi .slt J (broadcastInDim S32x8192x80 ![] Facts₀.bcast_S_S32x8192x80 (constantI S_ 32 0#32)))
    (addi J (broadcastInDim S32x8192x80 ![] Facts₀.bcast_S_S32x8192x80 (constantI S_ 32 11#32))) J

/-- The result as one term over the counts, the bucket words and the running sums. -/
private def resV (C : IVec S10 32) (J : IVec S32x8192x80 32) (A : FVec Ideal S10 .f32) : FVec Ideal S32x8192x80 .f32 :=
  Host.divf
    (Host.gather gather_S11_S32x8192x80x1_S32x8192x80_n_0_n_n_0_3_1
      (cat2 (wP C A) (broadcastInDim S1 ![] Facts₀.bcast_S_S1 (constant S_ .f32 0x00000000#32)))
      (broadcastInDim S32x8192x80x1 ![0, 1, 2] Facts₀.bcast_S32x8192x80_S32x8192x80x1_0_1_2 (idxN J)))
    (broadcastInDim S32x8192x80 ![] Facts₀.bcast_S_S32x8192x80 (denP C))

/-- The reference's result as one term over its three arguments. -/
private def resP (P : FVec Ideal S32x8192x80 .f32) (T : IVec S32x8192x80 32) (A : FVec Ideal S10 .f32) :
    FVec Ideal S32x8192x80 .f32 :=
  resV (cntP (idxP P T)) (idxP P T) A

/-- Under admission the bucket word of every element is its bin: the proxy is below the threshold, so the
    select takes the capped floor. -/
private theorem idxP_eq (P : FVec Ideal S32x8192x80 .f32) (T : IVec S32x8192x80 32) (hadm : Cert.Ghm.Adm P T)
    (j : S32x8192x80.Idx) : idxP P T j = Cert.Ghm.bin (P j) (T j) := by
  obtain ⟨r, hp, hr⟩ := hadm j
  show Scalar.select (Ideal.cmp .olt (Cert.Ghm.gnorm (P j) (T j)) (Ideal.ofBits .f32 0x3F800008#32))
    (Cert.Ghm.bin (P j) (T j)) 10#32 = _
  rw [Cert.Ghm.gnorm_valid hp hr]
  rfl

/-- Entry k of the counts is the number of elements in bin k, as a 32-bit word: the slice reads the scattered
    histogram at k, which counts the elements whose bucket word read signed is k; a bin is below 10, so read
    signed it is its value. -/
private theorem cntP_eq (P : FVec Ideal S32x8192x80 .f32) (T : IVec S32x8192x80 32) (hadm : Cert.Ghm.Adm P T)
    (y : S10.Idx) : cntP (idxP P T) y = BitVec.ofNat 32 (Cert.Ghm.cnt P T (y 0).val) := by
  obtain ⟨k, rfl⟩ : ∃ k : Fin 10, y = ValueIdx.ix1 k := ⟨y 0, ValueIdx.eq_ix1 y⟩
  unfold cntP
  rw [Layout.slice_read, Scatter.scatter_count]
  refine congrArg (BitVec.ofNat 32) ?_
  show _ = Cert.Ghm.cnt P T k.val
  unfold Cert.Ghm.cnt
  refine congrArg Finset.card (Finset.filter_congr fun i _ => ?_)
  obtain ⟨r, hp, hr⟩ := hadm i
  rw [idxP_eq P T hadm i, Cert.Ghm.toInt_of_lt (Cert.Ghm.bin_lt hp hr)]
  show ((Cert.Ghm.bin (P i) (T i)).toNat : ℤ) = ((k.val : ℕ) : ℤ) ↔ _
  exact Nat.cast_inj

/-- The flag of entry y is the occupancy flag of its bin's count. -/
private theorem flagP_eq (P : FVec Ideal S32x8192x80 .f32) (T : IVec S32x8192x80 32) (hadm : Cert.Ghm.Adm P T)
    (y : S10.Idx) : flagP (cntP (idxP P T)) y = Cert.Ghm.occ (Cert.Ghm.cnt P T (y 0).val) := by
  show IntOp.cmpi .sgt (cntP (idxP P T) y) 0#32 = _
  rw [cntP_eq P T hadm y]
  exact Cert.Ghm.occ_of_int _ (Cert.Ghm.cnt_le P T _)

/-- The converted count of entry y is the count as a real number. -/
private theorem sitofp_cntP (P : FVec Ideal S32x8192x80 .f32) (T : IVec S32x8192x80 32) (hadm : Cert.Ghm.Adm P T)
    (y : S10.Idx) :
    (sitofp .f32 (cntP (idxP P T)) : FVec Ideal S10 .f32) y = Cert.Ghm.nreal (Cert.Ghm.cnt P T (y 0).val) := by
  show Cert.Ghm.wreal (cntP (idxP P T) y) = _
  rw [cntP_eq P T hadm y]
  exact Cert.Ghm.wreal_ofNat _ (Cert.Ghm.cnt_le P T _)

/-- The weight of one entry, from its flag and its converted count: the three selects and the quotient are taken
    pointwise, and they are the weight's definition. -/
private theorem wP_of (C : IVec S10 32) (A : FVec Ideal S10 .f32) (n : ℕ) (y : S10.Idx)
    (hf : flagP C y = Cert.Ghm.occ n) (hs : (sitofp .f32 C : FVec Ideal S10 .f32) y = Cert.Ghm.nreal n) :
    wP C A y = Cert.Ghm.binW n (A y) := by
  unfold wP
  simp only [select, Host.divf, addf, mulf, hf, hs]
  rfl

/-- The weight of entry y is the weight of its bin. -/
private theorem wP_eq (P : FVec Ideal S32x8192x80 .f32) (T : IVec S32x8192x80 32) (A : FVec Ideal S10 .f32)
    (hadm : Cert.Ghm.Adm P T) (y : S10.Idx) :
    wP (cntP (idxP P T)) A y = Cert.Ghm.binW (Cert.Ghm.cnt P T (y 0).val) (A y) :=
  wP_of _ A _ y (flagP_eq P T hadm y) (sitofp_cntP P T hadm y)

/-- The denominator is max(number of occupied bins, 1): the widened flags are the occupancy flags, summed by the
    same fold. -/
private theorem denP_eq (P : FVec Ideal S32x8192x80 .f32) (T : IVec S32x8192x80 32) (hadm : Cert.Ghm.Adm P T)
    (z : S_.Idx) : denP (cntP (idxP P T)) z = Cert.Ghm.nMax (Cert.Ghm.cnt P T) := by
  obtain rfl : z = fun a => a.elim0 := funext fun a => a.elim0
  have hfl : extui 32 (flagP (cntP (idxP P T))) Facts₀.natLt_1_32
      = fun b : Cert.Ghm.SV.Idx => (Cert.Ghm.occ (Cert.Ghm.cnt P T (b 0).val)).setWidth 32 := by
    funext b
    show (flagP (cntP (idxP P T)) b).setWidth 32 = _
    rw [flagP_eq P T hadm b]
  show max (Cert.Ghm.wreal (Host.reduce IntOp.addi (extui 32 (flagP (cntP (idxP P T))) Facts₀.natLt_1_32)
      (constantI S_ 32 0#32) Facts₀.reducesTo_S10_S_d0 Facts₀.h_S_ (fun a => a.elim0)))
    (Ideal.ofBits .f32 0x3F800000#32) = _
  rw [hfl]
  rfl

/-- A bin is not negative, so as a look-up index it is itself. -/
private theorem idxN_eq (P : FVec Ideal S32x8192x80 .f32) (T : IVec S32x8192x80 32) (hadm : Cert.Ghm.Adm P T)
    (i : S32x8192x80.Idx) : idxN (idxP P T) i = Cert.Ghm.bin (P i) (T i) := by
  obtain ⟨r, hp, hr⟩ := hadm i
  show Scalar.select (IntOp.cmpi .slt (idxP P T i) 0#32) (IntOp.addi (idxP P T i) 11#32) (idxP P T i) = _
  rw [idxP_eq P T hadm i, Cert.Ghm.not_slt_zero_of_lt (Cert.Ghm.bin_lt hp hr)]
  rfl

/-- The index array with a trailing unit axis, read at a position whose first three coordinates are an element's, is
    the array at the element. -/
private theorem bcast4_read (X : IVec S32x8192x80 32) (i : S32x8192x80.Idx) (j4 : S32x8192x80x1.Idx)
    (h0 : (j4 0).val = (i 0).val) (h1 : (j4 1).val = (i 1).val) (h2 : (j4 2).val = (i 2).val) :
    broadcastInDim S32x8192x80x1 ![0, 1, 2] Facts₀.bcast_S32x8192x80_S32x8192x80x1_0_1_2 X j4 = X i := by
  unfold broadcastInDim
  congr 1
  funext a
  match a with
  | ⟨0, _⟩ => exact Fin.ext h0
  | ⟨1, _⟩ => exact Fin.ext h1
  | ⟨2, _⟩ => exact Fin.ext h2

/-- A scalar array broadcast to the big shape, read anywhere, is the scalar. -/
private theorem den_read (D : FVec Ideal S_ .f32) (i : S32x8192x80.Idx) :
    broadcastInDim S32x8192x80 ![] Facts₀.bcast_S_S32x8192x80 D i = D (fun a => a.elim0) := by
  unfold broadcastInDim
  congr 1
  funext a
  exact a.elim0

/-- Below ten the index of a bin in a ten-vector is the bin itself. -/
private theorem vidx_of_lt {k : ℕ} (hk : k < 10) : Cert.Ghm.vidx k = ValueIdx.ix1 (⟨k, hk⟩ : Fin 10) := by
  unfold Cert.Ghm.vidx
  congr 1
  exact Fin.ext (Nat.mod_eq_of_lt hk)

/-- The table look-up at an element reads the weight of its bin. -/
private theorem gather_eq (P : FVec Ideal S32x8192x80 .f32) (T : IVec S32x8192x80 32) (A : FVec Ideal S10 .f32)
    (hadm : Cert.Ghm.Adm P T) (i : S32x8192x80.Idx) :
    Host.gather gather_S11_S32x8192x80x1_S32x8192x80_n_0_n_n_0_3_1
        (cat2 (wP (cntP (idxP P T)) A) (broadcastInDim S1 ![] Facts₀.bcast_S_S1 (constant S_ .f32 0x00000000#32)))
        (broadcastInDim S32x8192x80x1 ![0, 1, 2] Facts₀.bcast_S32x8192x80_S32x8192x80x1_0_1_2 (idxN (idxP P T))) i
      = Cert.Ghm.binW (Cert.Ghm.cnt P T (Cert.Ghm.bin (P i) (T i)).toNat)
          (A (Cert.Ghm.vidx (Cert.Ghm.bin (P i) (T i)).toNat)) := by
  obtain ⟨r, hp, hr⟩ := hadm i
  have hlt : (Cert.Ghm.bin (P i) (T i)).toNat < 10 := Cert.Ghm.bin_lt hp hr
  -- the look-up reads the table at the bucket word, which is the bin, one of 0 … 9
  have hg := Layout.gather_read
      (cat2 (wP (cntP (idxP P T)) A) (broadcastInDim S1 ![] Facts₀.bcast_S_S1 (constant S_ .f32 0x00000000#32)))
      (broadcastInDim S32x8192x80x1 ![0, 1, 2] Facts₀.bcast_S32x8192x80_S32x8192x80x1_0_1_2 (idxN (idxP P T))) i
      (⟨(Cert.Ghm.bin (P i) (T i)).toNat, by omega⟩ : Fin 11)
  refine (hg ?_).trans ?_
  · rw [bcast4_read (idxN (idxP P T)) i]
    · rw [idxN_eq P T hadm i]
      exact Cert.Ghm.toInt_of_lt hlt
    · rfl
    · rfl
    · rfl
  · -- below ten the table is the ten weights
    unfold cat2
    rw [Layout.concat_read _ _ _ hlt, wP_eq P T A hadm, vidx_of_lt hlt]

/-- The composed term is the specification: per element, the weight of its bin over max(#occupied, 1). -/
private theorem resP_eq (P : FVec Ideal S32x8192x80 .f32) (T : IVec S32x8192x80 32) (A : FVec Ideal S10 .f32)
    (hadm : Cert.Ghm.Adm P T) : resP P T A = Cert.Ghm.G P T A := by
  funext i
  unfold resP resV Cert.Ghm.G Cert.Ghm.weight
  simp only [Host.divf, Ideal.hostDivf_def]
  rw [den_read, denP_eq P T hadm, gather_eq P T A hadm i]

/-- The flattening operation's result, at the flat shape's own name. -/
private theorem reshape_v12 (he hn hx hy) (V : Valuation τ sig (Elt Ideal)) :
    (reshape (τ := τ) (Val := Elt Ideal) main_v11 main_v12 he hn hx hy).result V (no_index (Proc.devRef .tc main_v12))
      = shapeCast S20971520 (V (Proc.devRef .tc main_v11) : IVec S32x8192x80 32) Facts₀.shapeCasts_S32x8192x80_S20971520 :=
  (reshape_result' he hn hx hy V).trans rfl

/-- Running two lists of operations one after the other is running their concatenation. -/
private theorem after_app (l₁ l₂ : List (HloOp τ sig (Elt Ideal))) (V : Valuation τ sig (Elt Ideal)) :
    after (l₁ ++ l₂) V = after l₂ (after l₁ V) := by
  induction l₁ generalizing V with
  | nil => rfl
  | cons op l ih => exact ih _

set_option maxRecDepth 8192 in
set_option maxHeartbeats 4000000 in
/-- After the first 26 operations the bucket-word buffer holds the bucket words. -/
private theorem pre_v11 (m : (ℓ : Loc nD τ sig) → Buf (Elt Ideal) ℓ) (c : Dev nD) :
    (after (List.take 26 (Cert.ReferenceIdeal.RunP.ops (F := Ideal))) (launchContents m c) (Proc.devRef .tc main_v11)
        : IVec S32x8192x80 32)
      = idxP (launchContents m c (Proc.devRef .tc main_arg0)) (launchContents m c (Proc.devRef .tc main_arg1)) := by
  simp (disch := decide) only [List.take_succ_cons, List.take_zero, after_cons, after_nil,
      nullary_result', unary_result', binary_result', ternary_result', quaternary_result', reshape_v12, nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_def]
  simp only [TRef.ofBuf, TRef.toBuf, cast_eq, id_eq]
  delta idxP gP
  with_reducible rfl

set_option maxRecDepth 8192 in
set_option maxHeartbeats 4000000 in
/-- After the first 26 operations the counts buffer holds the first ten entries of the scattered histogram. -/
private theorem pre_v17 (m : (ℓ : Loc nD τ sig) → Buf (Elt Ideal) ℓ) (c : Dev nD) :
    (after (List.take 26 (Cert.ReferenceIdeal.RunP.ops (F := Ideal))) (launchContents m c) (Proc.devRef .tc main_v17)
        : IVec S10 32)
      = cntP (idxP (launchContents m c (Proc.devRef .tc main_arg0)) (launchContents m c (Proc.devRef .tc main_arg1))) := by
  simp (disch := decide) only [List.take_succ_cons, List.take_zero, after_cons, after_nil,
      nullary_result', unary_result', binary_result', ternary_result', quaternary_result', reshape_v12, nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_def]
  simp only [TRef.ofBuf, TRef.toBuf, cast_eq, id_eq]
  delta cntP idxP gP
  with_reducible rfl

set_option maxRecDepth 8192 in
set_option maxHeartbeats 4000000 in
/-- The first 26 operations leave the running sums as launched. -/
private theorem pre_arg2 (m : (ℓ : Loc nD τ sig) → Buf (Elt Ideal) ℓ) (c : Dev nD) :
    after (List.take 26 (Cert.ReferenceIdeal.RunP.ops (F := Ideal))) (launchContents m c) (Proc.devRef .tc main_arg2)
      = launchContents m c (Proc.devRef .tc main_arg2) := by
  simp (disch := decide) only [List.take_succ_cons, List.take_zero, after_cons, after_nil,
      nullary_result', unary_result', binary_result', ternary_result', quaternary_result', reshape_v12, nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_def]

set_option maxRecDepth 8192 in
set_option maxHeartbeats 4000000 in
/-- The remaining 43 operations, from any contents: the result buffer ends at the composed term of the counts, the
    bucket words and the running sums found there. -/
private theorem post_v45 (V : Valuation τ sig (Elt Ideal)) :
    (after (List.drop 26 (Cert.ReferenceIdeal.RunP.ops (F := Ideal))) V (Proc.devRef .tc main_v45) : FVec Ideal S32x8192x80 .f32)
      = resV (V (Proc.devRef .tc main_v17)) (V (Proc.devRef .tc main_v11)) (V (Proc.devRef .tc main_arg2)) := by
  simp (disch := decide) only [List.drop_succ_cons, List.drop_zero, after_cons, after_nil,
      nullary_result', unary_result', binary_result', ternary_result', quaternary_result', reshape_v12, nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_def]
  simp only [TRef.ofBuf, TRef.toBuf, cast_eq, id_eq]
  delta resV wP denP flagP idxN
  with_reducible rfl

theorem result_eq (m : (ℓ : Loc nD τ sig) → Buf (Elt Ideal) ℓ) (c : Dev nD)
    (hadm : Cert.Ghm.Adm (inP m c) (inT m c)) :
    (after (Cert.ReferenceIdeal.RunP.ops (F := Ideal)) (launchContents m c) (Proc.devRef .tc main_v45) : Cert.Ghm.SA.Idx → EReal)
      = Cert.Ghm.G (inP m c) (inT m c) (inA m c) := by
  -- the run is the first 26 operations followed by the other 43
  rw [← List.take_append_drop 26 (Cert.ReferenceIdeal.RunP.ops (F := Ideal)), after_app, post_v45, pre_v11, pre_v17, pre_arg2]
  exact resP_eq _ _ _ hadm

end Cert.ReferenceIdeal.Result

end
-- ==== Proof.PreDecode.lean ====
/-
  Reading the precondition: it says that every prediction is finite, every running sum is finite, and every
  |prediction − label| is at most 1.  From the first and the third every prediction is a real number within 1 of its
  label.
-/
import proofs.«178306_j1932735283877_1_alg».proof.Pre_finite_inputs
import proofs.«178306_j1932735283877_1_alg».proof.Proof.Gen.Pre_finite_inputs
import proofs.«178306_j1932735283877_1_alg».proof.Proof.BinSpec
import Idealize.ShloMosaic.Lib.ReduceAll

noncomputable section

namespace Cert.Ghm

open Idealize.ShloMosaic

variable [Cert.Pre_finite_inputs.Facts]

/-- A scalar has exactly one index. -/
private instance : Subsingleton Cert.Pre_finite_inputs.S_.Idx := ⟨fun a b => funext fun d => d.elim0⟩

/-- A strict comparison that holds is the strict order. -/
private theorem lt_of_cmp_olt {x y : EReal} (h : Ideal.cmp .olt x y = 1#1) : x < y := by
  by_contra hn
  simp [Ideal.cmp, hn] at h

/-- A weak comparison that holds is the weak order. -/
private theorem le_of_cmp_ole {x y : EReal} (h : Ideal.cmp .ole x y = 1#1) : x ≤ y := by
  by_contra hn
  simp [Ideal.cmp, hn] at h

/-- The pattern of +∞ is the top element. -/
private theorem ofBits_inf : Ideal.ofBits .f32 0x7F800000#32 = ⊤ := by
  simp [Ideal.ofBits, Ideal.ieee]

/-- The pattern of 1.0 is the real number one. -/
private theorem ofBits_one : Ideal.ofBits .f32 0x3F800000#32 = ((1 : ℝ) : EReal) := by
  simp [Ideal.ofBits, Ideal.ieee, -EReal.coe_mul]; norm_num

/-- An extended real whose absolute value max(x, −x) is below +∞ is neither infinity, so it is a real number. -/
private theorem real_of_abs_lt_top {x : EReal} (h : max x (-x) < ⊤) : ∃ r : ℝ, x = (r : EReal) := by
  induction x using EReal.rec with
  | bot => simp at h
  | coe r => exact ⟨r, rfl⟩
  | top => simp at h

/-- The precondition holds only of admitted inputs.  It is a conjunction of three statements "for all indices";
    the first at index i says max(P i, −P i) < +∞, so P i is a real r; the third at i says
    max(r − t, −(r − t)) ≤ 1 with t the label read as a real, which on the reals is |r − t| ≤ 1. -/
theorem adm_of_pre (P : SA.Idx → EReal) (T : SA.Idx → BitVec 32) (A : SV.Idx → EReal)
    (h : Cert.Pre_finite_inputs.fn (F := Ideal) P T A = fun _ => 1#1) : Adm P T := by
  have h0 := congrFun h ValueIdx.ix0
  dsimp only [Cert.Pre_finite_inputs.fn] at h0
  simp only [andi, IntOp.andi_eq_one] at h0
  obtain ⟨⟨h1, _⟩, h3⟩ := h0
  intro i
  -- each "for all" conjunct, read at the index i
  have e1 := Host.reduce_andi_all _ _ _ _ _ h1 i
  have e3 := Host.reduce_andi_all _ _ _ _ _ h3 i
  clear h1 h3 h
  dsimp only [cmpf, Host.absf, broadcastInDim, constant, subf, sitofp] at e1 e3
  change Ideal.cmp .olt (max (P i) (-(P i))) (Ideal.ofBits .f32 0x7F800000#32) = 1#1 at e1
  change Ideal.cmp .ole (max (P i - (((T i).toInt : ℝ) : EReal)) (-(P i - (((T i).toInt : ℝ) : EReal))))
    (Ideal.ofBits .f32 0x3F800000#32) = 1#1 at e3
  have l1 := lt_of_cmp_olt e1
  have l3 := le_of_cmp_ole e3
  rw [ofBits_inf] at l1
  rw [ofBits_one] at l3
  -- |P i| < +∞ makes P i a real number r
  obtain ⟨r, hr⟩ := real_of_abs_lt_top l1
  refine ⟨r, hr, ?_⟩
  -- both r − t ≤ 1 and −(r − t) ≤ 1 on the reals, which is |r − t| ≤ 1
  rw [hr, ← EReal.coe_sub, ← EReal.coe_neg] at l3
  obtain ⟨la, lb⟩ := max_le_iff.1 l3
  rw [EReal.coe_le_coe_iff] at la lb
  exact abs_le'.2 ⟨la, lb⟩

end Cert.Ghm

end
-- ==== Proof.lean ====
/-
  A two-pass histogram reweighting (GHM binning) against its one-pass reference, equal over the extended reals.

  Both programs bin every element of a 32 × 8192 × 80 input by ⌊10·|prediction − label|⌋ capped at 9, count the
  elements of each of the ten bins, move an occupied bin's running sum to 0.1·sum + 0.9·count, give an occupied bin
  the weight 655360 / sum and an empty bin 0, and return for every element its bin's weight divided by
  max(number of occupied bins, 1).  The kernel counts with sums of 0/1 indicators accumulated over the 32 blocks and
  looks the weight up with a ten-way select; the reference counts with an integer scatter-add into eleven buckets
  (the eleventh collecting proxies of 1 + 2⁻²⁰·8 and above) and looks the weight up with a gather.  The two agree
  wherever no element reaches the eleventh bucket; the statement's precondition, beside finiteness, is the
  reference's documented range of the proxy: |prediction − label| ≤ 1.  Under it every bin is one of 0 … 9, the
  integer counts are the real counts (none exceeds 20971520 < 2³¹), and both results are one function `Ghm.G` of the
  arguments.  Nothing in the algebra needs more than 0 + x = x: the two sides apply the same operations in the
  same order to the same numbers.
-/
import proofs.«178306_j1932735283877_1_alg».proof.Defs
import proofs.«178306_j1932735283877_1_alg».proof.Proof.Gen.Kernel
import proofs.«178306_j1932735283877_1_alg».proof.Proof.Gen.Kernel.Frame
import proofs.«178306_j1932735283877_1_alg».proof.Proof.Gen.KernelIdeal
import proofs.«178306_j1932735283877_1_alg».proof.Proof.Gen.KernelIdeal.Frame
import proofs.«178306_j1932735283877_1_alg».proof.Proof.Gen.ReferenceIdeal
import proofs.«178306_j1932735283877_1_alg».proof.Proof.Gen.Pre_finite_inputs
import proofs.«178306_j1932735283877_1_alg».proof.Proof.KernelValue
import proofs.«178306_j1932735283877_1_alg».proof.Proof.RefValue
import proofs.«178306_j1932735283877_1_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- From memories agreeing on the arguments both programs end at `Ghm.G` of them. -/
theorem algebraic : Cert.algebraic_KernelIdeal_ReferenceIdeal := by
  intro m ρ m' ρ' hpre hagree
  have hadm : ∀ c, Cert.Ghm.Adm (Cert.KernelIdeal.inP m c) (Cert.KernelIdeal.inT m c) := fun c =>
    Cert.Ghm.adm_of_pre (Cert.KernelIdeal.inP m c) (Cert.KernelIdeal.inT m c) (Cert.KernelIdeal.inA m c) (hpre c)
  refine ⟨fun c => Cert.Ghm.G (Cert.KernelIdeal.inP m c) (Cert.KernelIdeal.inT m c) (Cert.KernelIdeal.inA m c), ?_, ?_⟩
  · exact (θ_run Cert.KernelIdeal.defs _ _).mono
      (fun _ h c => ⟨(h c).1.trans (Cert.KernelIdeal.Result.result_eq m ρ c (hadm c)), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.RunP.run (F := Ideal) m' ρ')
    have e0 : Cert.ReferenceIdeal.inP m' c = Cert.KernelIdeal.inP m c := (hagree c).1
    have e1 : Cert.ReferenceIdeal.inT m' c = Cert.KernelIdeal.inT m c := (hagree c).2.1
    have e2 : Cert.ReferenceIdeal.inA m' c = Cert.KernelIdeal.inA m c := (hagree c).2.2
    have hadm' : Cert.Ghm.Adm (Cert.ReferenceIdeal.inP m' c) (Cert.ReferenceIdeal.inT m' c) := by
      rw [e0, e1]; exact hadm c
    refine (Cert.ReferenceIdeal.Result.result_eq m' c hadm').trans ?_
    rw [e0, e1, e2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
